-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x128x128x64 : Shape := ⟨4, ![32, 128, 128, 64]⟩
abbrev S_ : Shape := ⟨0, ![]⟩

class Facts : Prop where
  bcast_S_S32x128x128x64 : S_.BroadcastsInDim S32x128x128x64 (![] : Fin 0 → Fin S32x128x128x64.rank)
  reducesTo_S32x128x128x64_S_d0_1_2_3 : S32x128x128x64.ReducesTo [0, 1, 2, 3] S_
  h_S_ : 0 < S_.numel

variable [Facts]

def fn {F : FTy → Type} [FloatOps F] (main_arg0 : FVec F S32x128x128x64 .f32) (main_arg1 : IVec S32x128x128x64 32) : IVec S_ 1 :=
  let main_v0 : IVec S32x128x128x64 32 := iotaInDim S32x128x128x64 32 1
  let main_v1 : IVec S32x128x128x64 32 := iotaInDim S32x128x128x64 32 2
  let main_c : IVec S_ 32 := constantI S_ 32 15#32
  let main_v2 : IVec S32x128x128x64 32 := broadcastInDim S32x128x128x64 ![] bcast_S_S32x128x128x64 main_c
  let main_v3 : IVec S32x128x128x64 32 := Host.shrsi main_arg1 main_v2
  let main_v4 : IVec S32x128x128x64 1 := cmpi .eq main_v3 main_v0
  let main_c_0 : IVec S_ 32 := constantI S_ 32 7#32
  let main_v5 : IVec S32x128x128x64 32 := broadcastInDim S32x128x128x64 ![] bcast_S_S32x128x128x64 main_c_0
  let main_v6 : IVec S32x128x128x64 32 := Host.shrsi main_arg1 main_v5
  let main_c_1 : IVec S_ 32 := constantI S_ 32 127#32
  let main_v7 : IVec S32x128x128x64 32 := broadcastInDim S32x128x128x64 ![] bcast_S_S32x128x128x64 main_c_1
  let main_v8 : IVec S32x128x128x64 32 := andi main_v6 main_v7
  let main_v9 : IVec S32x128x128x64 1 := cmpi .eq main_v8 main_v1
  let main_v10 : FVec F S32x128x128x64 .f32 := Host.absf main_arg0
  let main_cst : FVec F S_ .f32 := constant S_ .f32 0x7F800000#32
  let main_v11 : FVec F S32x128x128x64 .f32 := broadcastInDim S32x128x128x64 ![] bcast_S_S32x128x128x64 main_cst
  let main_v12 : IVec S32x128x128x64 1 := cmpf .olt main_v10 main_v11
  let main_c_2 : IVec S_ 1 := constantI S_ 1 1#1
  let main_v13 : IVec S_ 1 := (fun x v => Host.reduce IntOp.andi x v reducesTo_S32x128x128x64_S_d0_1_2_3 h_S_) main_v12 main_c_2
  let main_v14 : IVec S32x128x128x64 1 := andi main_v4 main_v9
  let main_c_3 : IVec S_ 1 := constantI S_ 1 1#1
  let main_v15 : IVec S_ 1 := (fun x v => Host.reduce IntOp.andi x v reducesTo_S32x128x128x64_S_d0_1_2_3 h_S_) main_v14 main_c_3
  let main_v16 : IVec S_ 1 := andi main_v13 main_v15
  main_v16
-- ==== Kernel.lean ====
abbrev S32x128x128x64 : Shape := ⟨4, ![32, 128, 128, 64]⟩
abbrev S32x128x2x128x128 : Shape := ⟨5, ![32, 128, 2, 128, 128]⟩
abbrev S1x32x128x64 : Shape := ⟨4, ![1, 32, 128, 64]⟩
abbrev S1x32x2x128x128 : Shape := ⟨5, ![1, 32, 2, 128, 128]⟩
abbrev S32x128x64 : Shape := ⟨3, ![32, 128, 64]⟩
abbrev S32x128x128 : Shape := ⟨3, ![32, 128, 128]⟩
abbrev S1x32x1x128x128 : Shape := ⟨5, ![1, 32, 1, 128, 128]⟩
abbrev S32x256x256x64 : Shape := ⟨4, ![32, 256, 256, 64]⟩

abbrev nBuf : Space → Nat
  | .hbm => 4
  | .vmem => 6
  | .smem => 0
  | _ => 0

abbrev bufTy : (tb : Table) → Fin (tcTables nBuf tb) → BufTy
  | .hbm, ⟨0, _⟩ => ⟨S32x128x128x64, .f32⟩
  | .hbm, ⟨1, _⟩ => ⟨S32x128x128x64, .i32⟩
  | .hbm, ⟨2, _⟩ => ⟨S32x128x2x128x128, .f32⟩
  | .hbm, ⟨3, _⟩ => ⟨S32x256x256x64, .f32⟩
  | .local _ .vmem, ⟨0, _⟩ => ⟨S1x32x128x64, .f32⟩
  | .local _ .vmem, ⟨1, _⟩ => ⟨S1x32x128x64, .f32⟩
  | .local _ .vmem, ⟨2, _⟩ => ⟨S1x32x128x64, .i32⟩
  | .local _ .vmem, ⟨3, _⟩ => ⟨S1x32x128x64, .i32⟩
  | .local _ .vmem, ⟨4, _⟩ => ⟨S1x32x2x128x128, .f32⟩
  | .local _ .vmem, ⟨5, _⟩ => ⟨S1x32x2x128x128, .f32⟩
  | _, _ => ⟨S32x128x128x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

abbrev stage0_0 : Fin 2 → Memref sig .tc .vmem S1x32x128x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x128x64 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x32x2x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1x32x128x64_S1x32x128x64_0_0_0_0 : ∀ a, (![0, 0, 0, 0] : Fin 4 → Nat) a + S1x32x128x64.size a ≤ S1x32x128x64.size a
  h_S1x32x128x64 : 0 < S1x32x128x64.numel
  shapeCasts_S1x32x128x64_S32x128x64 : S1x32x128x64.ShapeCasts S32x128x64
  concatenates_S32x128x64_S32x128x64_S32x128x128_d2 : Shape.Concatenates [S32x128x64, S32x128x64] S32x128x128 2
  inb_S1x32x2x128x128_S1x32x1x128x128_0_0_0_0_0 : ∀ a, (![0, 0, 0, 0, 0] : Fin 5 → Nat) a + S1x32x1x128x128.size a ≤ S1x32x2x128x128.size a
  h_S1x32x1x128x128 : 0 < S1x32x1x128x128.numel
  shapeCasts_S1x32x1x128x128_S32x128x128 : S1x32x1x128x128.ShapeCasts S32x128x128
  shapeCasts_S32x128x128_S1x32x1x128x128 : S32x128x128.ShapeCasts S1x32x1x128x128
  inb_S1x32x2x128x128_S1x32x1x128x128_0_0_1_0_0 : ∀ a, (![0, 0, 1, 0, 0] : Fin 5 → Nat) a + S1x32x1x128x128.size a ≤ S1x32x2x128x128.size a
  shapeCasts_S32x128x2x128x128_S32x256x256x64 : S32x128x2x128x128.ShapeCasts S32x256x256x64
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x128x64.size a ≤ S32x128x128x64.size a
  hwx0_0 : ∀ i : grid0.Coords, EltTy.bits .f32 = 32 ∨ (Rect.block (s := S32x128x128x64) S1x32x128x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x32x128x64.size a ≤ S32x128x128x64.size a
  hwx0_1 : ∀ i : grid0.Coords, EltTy.bits .i32 = 32 ∨ (Rect.block (s := S32x128x128x64) S1x32x128x64.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x32x2x128x128.size a ≤ S32x128x2x128x128.size a
  hwx0_2 : ∀ i : grid0.Coords, EltTy.bits .f32 = 32 ∨ (Rect.block (s := S32x128x2x128x128) S1x32x2x128x128.size (cc0_transform_2 i) (hinb0_2 i)).WholeWords (EltTy.packing .f32)

variable [Facts₀]

abbrev win0_0 : Pipeline.Window sig grid0 :=
  Pipeline.Window.ofSpec (Memref.whole main_arg0) S1x32x128x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x32x128x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x32x2x128x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x128x128x64 : Shape := ⟨4, ![32, 128, 128, 64]⟩
abbrev S_ : Shape := ⟨0, ![]⟩
abbrev S32 : Shape := ⟨1, ![32]⟩
abbrev S32x1x1x1 : Shape := ⟨4, ![32, 1, 1, 1]⟩
abbrev S64 : Shape := ⟨1, ![64]⟩
abbrev S1x1x1x64 : Shape := ⟨4, ![1, 1, 1, 64]⟩
abbrev S32x256x256x64 : Shape := ⟨4, ![32, 256, 256, 64]⟩
abbrev S32x128x128x64x1 : Shape := ⟨5, ![32, 128, 128, 64, 1]⟩
abbrev S32x128x128x64x4 : Shape := ⟨5, ![32, 128, 128, 64, 4]⟩

abbrev nBuf : Space → Nat
  | .hbm => 102
  | .vmem => 0
  | .smem => 0
  | _ => 0

abbrev bufTy : (tb : Table) → Fin (tcTables nBuf tb) → BufTy
  | .hbm, ⟨0, _⟩ => ⟨S32x128x128x64, .f32⟩
  | .hbm, ⟨1, _⟩ => ⟨S32x128x128x64, .i32⟩
  | .hbm, ⟨2, _⟩ => ⟨S_, .i32⟩
  | .hbm, ⟨3, _⟩ => ⟨S_, .i32⟩
  | .hbm, ⟨4, _⟩ => ⟨S32x128x128x64, .i32⟩
  | .hbm, ⟨5, _⟩ => ⟨S32x128x128x64, .i32⟩
  | .hbm, ⟨6, _⟩ => ⟨S32x128x128x64, .i32⟩
  | .hbm, ⟨7, _⟩ => ⟨S_, .i32⟩
  | .hbm, ⟨8, _⟩ => ⟨S32x128x128x64, .i32⟩
  | .hbm, ⟨9, _⟩ => ⟨S32x128x128x64, .i1⟩
  | .hbm, ⟨10, _⟩ => ⟨S32x128x128x64, .i32⟩
  | .hbm, ⟨11, _⟩ => ⟨S32x128x128x64, .i32⟩
  | .hbm, ⟨12, _⟩ => ⟨S_, .i32⟩
  | .hbm, ⟨13, _⟩ => ⟨S32x128x128x64, .i32⟩
  | .hbm, ⟨14, _⟩ => ⟨S32x128x128x64, .i1⟩
  | .hbm, ⟨15, _⟩ => ⟨S32x128x128x64, .i1⟩
  | .hbm, ⟨16, _⟩ => ⟨S_, .i32⟩
  | .hbm, ⟨17, _⟩ => ⟨S32x128x128x64, .i32⟩
  | .hbm, ⟨18, _⟩ => ⟨S32x128x128x64, .i32⟩
  | .hbm, ⟨19, _⟩ => ⟨S32x128x128x64, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i1⟩
  | .hbm, ⟨24, _⟩ => ⟨S_, .i32⟩
  | .hbm, ⟨25, _⟩ => ⟨S_, .i32⟩
  | .hbm, ⟨26, _⟩ => ⟨S32x128x128x64, .i32⟩
  | .hbm, ⟨27, _⟩ => ⟨S32x128x128x64, .i32⟩
  | .hbm, ⟨28, _⟩ => ⟨S_, .i32⟩
  | .hbm, ⟨29, _⟩ => ⟨S32x128x128x64, .i32⟩
  | .hbm, ⟨30, _⟩ => ⟨S32x128x128x64, .i1⟩
  | .hbm, ⟨31, _⟩ => ⟨S_, .i32⟩
  | .hbm, ⟨32, _⟩ => ⟨S32x128x128x64, .i32⟩
  | .hbm, ⟨33, _⟩ => ⟨S32x128x128x64, .i1⟩
  | .hbm, ⟨34, _⟩ => ⟨S_, .i32⟩
  | .hbm, ⟨35, _⟩ => ⟨S_, .i1⟩
  | .hbm, ⟨36, _⟩ => ⟨S32x128x128x64, .i1⟩
  | .hbm, ⟨37, _⟩ => ⟨S32x128x128x64, .i1⟩
  | .hbm, ⟨38, _⟩ => ⟨S32x128x128x64, .i1⟩
  | .hbm, ⟨39, _⟩ => ⟨S32x128x128x64, .i32⟩
  | .hbm, ⟨40, _⟩ => ⟨S32x128x128x64, .i32⟩
  | .hbm, ⟨41, _⟩ => ⟨S32x128x128x64, .i32⟩
  | .hbm, ⟨42, _⟩ => ⟨S_, .i32⟩
  | .hbm, ⟨43, _⟩ => ⟨S_, .i32⟩
  | .hbm, ⟨44, _⟩ => ⟨S32x128x128x64, .i32⟩
  | .hbm, ⟨45, _⟩ => ⟨S32x128x128x64, .i32⟩
  | .hbm, ⟨46, _⟩ => ⟨S32x128x128x64, .i32⟩
  | .hbm, ⟨47, _⟩ => ⟨S_, .i32⟩
  | .hbm, ⟨48, _⟩ => ⟨S32x128x128x64, .i32⟩
  | .hbm, ⟨49, _⟩ => ⟨S32x128x128x64, .i1⟩
  | .hbm, ⟨50, _⟩ => ⟨S32x128x128x64, .i32⟩
  | .hbm, ⟨51, _⟩ => ⟨S32x128x128x64, .i32⟩
  | .hbm, ⟨52, _⟩ => ⟨S_, .i32⟩
  | .hbm, ⟨53, _⟩ => ⟨S32x128x128x64, .i32⟩
  | .hbm, ⟨54, _⟩ => ⟨S32x128x128x64, .i1⟩
  | .hbm, ⟨55, _⟩ => ⟨S32x128x128x64, .i1⟩
  | .hbm, ⟨56, _⟩ => ⟨S_, .i32⟩
  | .hbm, ⟨57, _⟩ => ⟨S32x128x128x64, .i32⟩
  | .hbm, ⟨58, _⟩ => ⟨S32x128x128x64, .i32⟩
  | .hbm, ⟨59, _⟩ => ⟨S32x128x128x64, .i32⟩
  | .hbm, ⟨60, _⟩ => ⟨S32, .i32⟩
  | .hbm, ⟨61, _⟩ => ⟨S32x1x1x1, .i32⟩
  | .hbm, ⟨62, _⟩ => ⟨S64, .i32⟩
  | .hbm, ⟨63, _⟩ => ⟨S1x1x1x64, .i32⟩
  | .hbm, ⟨64, _⟩ => ⟨S_, .f32⟩
  | .hbm, ⟨65, _⟩ => ⟨S32x256x256x64, .f32⟩
  | .hbm, ⟨66, _⟩ => ⟨S_, .i32⟩
  | .hbm, ⟨67, _⟩ => ⟨S32x1x1x1, .i32⟩
  | .hbm, ⟨68, _⟩ => ⟨S32x1x1x1, .i1⟩
  | .hbm, ⟨69, _⟩ => ⟨S_, .i32⟩
  | .hbm, ⟨70, _⟩ => ⟨S32x1x1x1, .i32⟩
  | .hbm, ⟨71, _⟩ => ⟨S32x1x1x1, .i32⟩
  | .hbm, ⟨72, _⟩ => ⟨S32x1x1x1, .i32⟩
  | .hbm, ⟨73, _⟩ => ⟨S_, .i32⟩
  | .hbm, ⟨74, _⟩ => ⟨S32x128x128x64, .i32⟩
  | .hbm, ⟨75, _⟩ => ⟨S32x128x128x64, .i1⟩
  | .hbm, ⟨76, _⟩ => ⟨S_, .i32⟩
  | .hbm, ⟨77, _⟩ => ⟨S32x128x128x64, .i32⟩
  | .hbm, ⟨78, _⟩ => ⟨S32x128x128x64, .i32⟩
  | .hbm, ⟨79, _⟩ => ⟨S32x128x128x64, .i32⟩
  | .hbm, ⟨80, _⟩ => ⟨S_, .i32⟩
  | .hbm, ⟨81, _⟩ => ⟨S32x128x128x64, .i32⟩
  | .hbm, ⟨82, _⟩ => ⟨S32x128x128x64, .i1⟩
  | .hbm, ⟨83, _⟩ => ⟨S_, .i32⟩
  | .hbm, ⟨84, _⟩ => ⟨S32x128x128x64, .i32⟩
  | .hbm, ⟨85, _⟩ => ⟨S32x128x128x64, .i32⟩
  | .hbm, ⟨86, _⟩ => ⟨S32x128x128x64, .i32⟩
  | .hbm, ⟨87, _⟩ => ⟨S_, .i32⟩
  | .hbm, ⟨88, _⟩ => ⟨S1x1x1x64, .i32⟩
  | .hbm, ⟨89, _⟩ => ⟨S1x1x1x64, .i1⟩
  | .hbm, ⟨90, _⟩ => ⟨S_, .i32⟩
  | .hbm, ⟨91, _⟩ => ⟨S1x1x1x64, .i32⟩
  | .hbm, ⟨92, _⟩ => ⟨S1x1x1x64, .i32⟩
  | .hbm, ⟨93, _⟩ => ⟨S1x1x1x64, .i32⟩
  | .hbm, ⟨94, _⟩ => ⟨S32x128x128x64, .i32⟩
  | .hbm, ⟨95, _⟩ => ⟨S32x128x128x64, .i32⟩
  | .hbm, ⟨96, _⟩ => ⟨S32x128x128x64x1, .i32⟩
  | .hbm, ⟨97, _⟩ => ⟨S32x128x128x64x1, .i32⟩
  | .hbm, ⟨98, _⟩ => ⟨S32x128x128x64x1, .i32⟩
  | .hbm, ⟨99, _⟩ => ⟨S32x128x128x64x1, .i32⟩
  | .hbm, ⟨100, _⟩ => ⟨S32x128x128x64x4, .i32⟩
  | .hbm, ⟨101, _⟩ => ⟨S32x256x256x64, .f32⟩
  | _, _ => ⟨S32x128x128x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_v4 : Ref sig .tc := ⟨.hbm, 7, rfl⟩
abbrev main_call0_v5 : Ref sig .tc := ⟨.hbm, 8, rfl⟩
abbrev main_call0_v6 : Ref sig .tc := ⟨.hbm, 9, rfl⟩
abbrev main_call0_v7 : Ref sig .tc := ⟨.hbm, 10, rfl⟩
abbrev main_call0_v8 : Ref sig .tc := ⟨.hbm, 11, rfl⟩
abbrev main_call0_c : Ref sig .tc := ⟨.hbm, 12, rfl⟩
abbrev main_call0_v9 : Ref sig .tc := ⟨.hbm, 13, rfl⟩
abbrev main_call0_v10 : Ref sig .tc := ⟨.hbm, 14, rfl⟩
abbrev main_call0_v11 : Ref sig .tc := ⟨.hbm, 15, rfl⟩
abbrev main_call0_c_0 : Ref sig .tc := ⟨.hbm, 16, rfl⟩
abbrev main_call0_v12 : Ref sig .tc := ⟨.hbm, 17, rfl⟩
abbrev main_call0_v13 : Ref sig .tc := ⟨.hbm, 18, rfl⟩
abbrev main_v0 : Ref sig .tc := ⟨.hbm, 19, rfl⟩
abbrev main_c_0 : Ref sig .tc := ⟨.hbm, 20, rfl⟩
abbrev main_call1_v0 : Ref sig .tc := ⟨.hbm, 21, rfl⟩
abbrev main_call1_c : Ref sig .tc := ⟨.hbm, 22, rfl⟩
abbrev main_call1_v1 : Ref sig .tc := ⟨.hbm, 23, rfl⟩
abbrev main_call1_c_0 : Ref sig .tc := ⟨.hbm, 24, rfl⟩
abbrev main_call1_v2 : Ref sig .tc := ⟨.hbm, 25, rfl⟩
abbrev main_call1_v3 : Ref sig .tc := ⟨.hbm, 26, rfl⟩
abbrev main_call1_v4 : Ref sig .tc := ⟨.hbm, 27, rfl⟩
abbrev main_call1_c_1 : Ref sig .tc := ⟨.hbm, 28, rfl⟩
abbrev main_call1_v5 : Ref sig .tc := ⟨.hbm, 29, rfl⟩
abbrev main_call1_v6 : Ref sig .tc := ⟨.hbm, 30, rfl⟩
abbrev main_call1_c_2 : Ref sig .tc := ⟨.hbm, 31, rfl⟩
abbrev main_call1_v7 : Ref sig .tc := ⟨.hbm, 32, rfl⟩
abbrev main_call1_v8 : Ref sig .tc := ⟨.hbm, 33, rfl⟩
abbrev main_call1_c_3 : Ref sig .tc := ⟨.hbm, 34, rfl⟩
abbrev main_call1_v9 : Ref sig .tc := ⟨.hbm, 35, rfl⟩
abbrev main_call1_v10 : Ref sig .tc := ⟨.hbm, 36, rfl⟩
abbrev main_call1_v11 : Ref sig .tc := ⟨.hbm, 37, rfl⟩
abbrev main_call1_v12 : Ref sig .tc := ⟨.hbm, 38, rfl⟩
abbrev main_call1_v13 : Ref sig .tc := ⟨.hbm, 39, rfl⟩
abbrev main_call1_v14 : Ref sig .tc := ⟨.hbm, 40, rfl⟩
abbrev main_v1 : Ref sig .tc := ⟨.hbm, 41, rfl⟩
abbrev main_c_1 : Ref sig .tc := ⟨.hbm, 42, rfl⟩
abbrev main_call2_v0 : Ref sig .tc := ⟨.hbm, 43, rfl⟩
abbrev main_call2_v1 : Ref sig .tc := ⟨.hbm, 44, rfl⟩
abbrev main_call2_v2 : Ref sig .tc := ⟨.hbm, 45, rfl⟩
abbrev main_call2_v3 : Ref sig .tc := ⟨.hbm, 46, rfl⟩
abbrev main_call2_v4 : Ref sig .tc := ⟨.hbm, 47, rfl⟩
abbrev main_call2_v5 : Ref sig .tc := ⟨.hbm, 48, rfl⟩
abbrev main_call2_v6 : Ref sig .tc := ⟨.hbm, 49, rfl⟩
abbrev main_call2_v7 : Ref sig .tc := ⟨.hbm, 50, rfl⟩
abbrev main_call2_v8 : Ref sig .tc := ⟨.hbm, 51, rfl⟩
abbrev main_call2_c : Ref sig .tc := ⟨.hbm, 52, rfl⟩
abbrev main_call2_v9 : Ref sig .tc := ⟨.hbm, 53, rfl⟩
abbrev main_call2_v10 : Ref sig .tc := ⟨.hbm, 54, rfl⟩
abbrev main_call2_v11 : Ref sig .tc := ⟨.hbm, 55, rfl⟩
abbrev main_call2_c_0 : Ref sig .tc := ⟨.hbm, 56, rfl⟩
abbrev main_call2_v12 : Ref sig .tc := ⟨.hbm, 57, rfl⟩
abbrev main_call2_v13 : Ref sig .tc := ⟨.hbm, 58, rfl⟩
abbrev main_v2 : Ref sig .tc := ⟨.hbm, 59, rfl⟩
abbrev main_v3 : Ref sig .tc := ⟨.hbm, 60, rfl⟩
abbrev main_v4 : Ref sig .tc := ⟨.hbm, 61, rfl⟩
abbrev main_v5 : Ref sig .tc := ⟨.hbm, 62, rfl⟩
abbrev main_v6 : Ref sig .tc := ⟨.hbm, 63, rfl⟩
abbrev main_cst : Ref sig .tc := ⟨.hbm, 64, rfl⟩
abbrev main_v7 : Ref sig .tc := ⟨.hbm, 65, rfl⟩
abbrev main_c_2 : Ref sig .tc := ⟨.hbm, 66, rfl⟩
abbrev main_v8 : Ref sig .tc := ⟨.hbm, 67, rfl⟩
abbrev main_v9 : Ref sig .tc := ⟨.hbm, 68, rfl⟩
abbrev main_c_3 : Ref sig .tc := ⟨.hbm, 69, rfl⟩
abbrev main_v10 : Ref sig .tc := ⟨.hbm, 70, rfl⟩
abbrev main_v11 : Ref sig .tc := ⟨.hbm, 71, rfl⟩
abbrev main_v12 : Ref sig .tc := ⟨.hbm, 72, rfl⟩
abbrev main_c_4 : Ref sig .tc := ⟨.hbm, 73, rfl⟩
abbrev main_v13 : Ref sig .tc := ⟨.hbm, 74, rfl⟩
abbrev main_v14 : Ref sig .tc := ⟨.hbm, 75, rfl⟩
abbrev main_c_5 : Ref sig .tc := ⟨.hbm, 76, rfl⟩
abbrev main_v15 : Ref sig .tc := ⟨.hbm, 77, rfl⟩
abbrev main_v16 : Ref sig .tc := ⟨.hbm, 78, rfl⟩
abbrev main_v17 : Ref sig .tc := ⟨.hbm, 79, rfl⟩
abbrev main_c_6 : Ref sig .tc := ⟨.hbm, 80, rfl⟩
abbrev main_v18 : Ref sig .tc := ⟨.hbm, 81, rfl⟩
abbrev main_v19 : Ref sig .tc := ⟨.hbm, 82, rfl⟩
abbrev main_c_7 : Ref sig .tc := ⟨.hbm, 83, rfl⟩
abbrev main_v20 : Ref sig .tc := ⟨.hbm, 84, rfl⟩
abbrev main_v21 : Ref sig .tc := ⟨.hbm, 85, rfl⟩
abbrev main_v22 : Ref sig .tc := ⟨.hbm, 86, rfl⟩
abbrev main_c_8 : Ref sig .tc := ⟨.hbm, 87, rfl⟩
abbrev main_v23 : Ref sig .tc := ⟨.hbm, 88, rfl⟩
abbrev main_v24 : Ref sig .tc := ⟨.hbm, 89, rfl⟩
abbrev main_c_9 : Ref sig .tc := ⟨.hbm, 90, rfl⟩
abbrev main_v25 : Ref sig .tc := ⟨.hbm, 91, rfl⟩
abbrev main_v26 : Ref sig .tc := ⟨.hbm, 92, rfl⟩
abbrev main_v27 : Ref sig .tc := ⟨.hbm, 93, rfl⟩
abbrev main_v28 : Ref sig .tc := ⟨.hbm, 94, rfl⟩
abbrev main_v29 : Ref sig .tc := ⟨.hbm, 95, rfl⟩
abbrev main_v30 : Ref sig .tc := ⟨.hbm, 96, rfl⟩
abbrev main_v31 : Ref sig .tc := ⟨.hbm, 97, rfl⟩
abbrev main_v32 : Ref sig .tc := ⟨.hbm, 98, rfl⟩
abbrev main_v33 : Ref sig .tc := ⟨.hbm, 99, rfl⟩
abbrev main_v34 : Ref sig .tc := ⟨.hbm, 100, rfl⟩
abbrev main_v35 : Ref sig .tc := ⟨.hbm, 101, rfl⟩

abbrev nD : Nat := 1
abbrev τ : Topo := Topo.v7x

variable {F : FTy → Type} [FloatOps F]

class Facts₀ : Prop where
  bcast_S_S32x128x128x64 : S_.BroadcastsInDim S32x128x128x64 (![] : Fin 0 → Fin S32x128x128x64.rank)
  bcast_S32_S32x1x1x1_0 : S32.BroadcastsInDim S32x1x1x1 (![0] : Fin 1 → Fin S32x1x1x1.rank)
  bcast_S64_S1x1x1x64_3 : S64.BroadcastsInDim S1x1x1x64 (![3] : Fin 1 → Fin S1x1x1x64.rank)
  bcast_S_S32x256x256x64 : S_.BroadcastsInDim S32x256x256x64 (![] : Fin 0 → Fin S32x256x256x64.rank)
  bcast_S_S32x1x1x1 : S_.BroadcastsInDim S32x1x1x1 (![] : Fin 0 → Fin S32x1x1x1.rank)
  bcast_S_S1x1x1x64 : S_.BroadcastsInDim S1x1x1x64 (![] : Fin 0 → Fin S1x1x1x64.rank)
  bcast_S32x1x1x1_S32x128x128x64_0_1_2_3 : S32x1x1x1.BroadcastsInDim S32x128x128x64 (![0, 1, 2, 3] : Fin 4 → Fin S32x128x128x64.rank)
  bcast_S1x1x1x64_S32x128x128x64_0_1_2_3 : S1x1x1x64.BroadcastsInDim S32x128x128x64 (![0, 1, 2, 3] : Fin 4 → Fin S32x128x128x64.rank)
  bcast_S32x128x128x64_S32x128x128x64x1_0_1_2_3 : S32x128x128x64.BroadcastsInDim S32x128x128x64x1 (![0, 1, 2, 3] : Fin 4 → Fin S32x128x128x64x1.rank)
  concatenates_S32x128x128x64x1_S32x128x128x64x1_S32x128x128x64x1_S32x128x128x64x1_S32x128x128x64x4_d4 : Shape.Concatenates [S32x128x128x64x1, S32x128x128x64x1, S32x128x128x64x1, S32x128x128x64x1] S32x128x128x64x4 4
  scatter_S32x256x256x64_S32x128x128x64x4_S32x128x128x64_n_0123_0123_4_wf : ScatterDims.WF S32x256x256x64 S32x128x128x64x4 S32x128x128x64 [] [0, 1, 2, 3] [0, 1, 2, 3] 4

variable [Facts₀]

def scatter_S32x256x256x64_S32x128x128x64x4_S32x128x128x64_n_0123_0123_4 : ScatterDims S32x256x256x64 S32x128x128x64x4 S32x128x128x64 where
  updateWindowDims := []
  insertedWindowDims := [0, 1, 2, 3]
  scatterDimsToOperandDims := [0, 1, 2, 3]
  indexVectorDim := 4
  wf := scatter_S32x256x256x64_S32x128x128x64x4_S32x128x128x64_n_0123_0123_4_wf

class Facts : Prop extends Facts₀ where

variable [Facts]
-- ==== Proof.Spec.lean ====
/-
  Max-unpooling with a 2×2 window over f32[32, 128, 128, 64]: what both programs compute, stated once.

  Each pooled value x[b, h, w, c] carries an index word n = idx[b, h, w, c] whose decoded output row is
  y = n / 2¹⁴ and whose decoded output column is xc = n / 2⁶ mod 2⁸ (the flat position (y · 256 + xc) · 64 + c').
  The unpooled array of shape [32, 256, 256, 64] holds, at the cell (b, Y, X, c), the value x[b, Y/2, X/2, c]
  when that value's word decodes to (Y, X), and zero otherwise (`unpool`).  This is what a scatter-add computes
  when every word points into its own 2×2 window (`Own`): then the only pooled position that can land on
  (b, Y, X, c) is (b, Y/2, X/2, c), so the sum over the positions landing there has at most that one term.

  The kernel writes the same numbers into an array of shape [32, 128, 2, 128, 128], at (b, h, r, w, p·64 + c)
  the value x[b, h, w, c] when bit 14 of its word is r and bit 6 is p (`unpool5`); read in row-major order as
  [32, 256, 256, 64] (`regroup`) that cell is (b, 2h + r, 2w + p, c).
-/
import Idealize.ShloMosaic.PureOps.Ideal
import Idealize.ShloMosaic.Lib.ValueIdx

noncomputable section

namespace Cert.Unpool

open Idealize.ShloMosaic Idealize.ShloMosaic.ValueIdx

abbrev SX : Shape := ⟨4, ![32, 128, 128, 64]⟩
abbrev SO : Shape := ⟨4, ![32, 256, 256, 64]⟩
abbrev S5 : Shape := ⟨5, ![32, 128, 2, 128, 128]⟩

/-- Every index word points into its own 2×2 window: the decoded row y = n / 2¹⁴ has y / 2 = h, that is
    n / 2¹⁵ = h, and the decoded column xc = n / 2⁶ mod 2⁸ has xc / 2 = w, that is n / 2⁷ mod 2⁷ = w. -/
def Own (idx : IVec SX 32) : Prop :=
  ∀ (b : Fin 32) (h w : Fin 128) (c : Fin 64),
    (idx (ix4 b h w c)).toNat / 32768 = h.val ∧ (idx (ix4 b h w c)).toNat / 128 % 128 = w.val

/-- The pooled position whose window holds the output cell (b, Y, X, c). -/
def src (b : Fin 32) (Y X : Fin 256) (c : Fin 64) : SX.Idx :=
  ix4 b ⟨Y.val / 2, by omega⟩ ⟨X.val / 2, by omega⟩ c

/-- The unpooled array at the cell (b, Y, X, c). -/
def unpoolAt (x : SX.Idx → EReal) (idx : IVec SX 32) (b : Fin 32) (Y X : Fin 256) (c : Fin 64) : EReal :=
  if (idx (src b Y X c)).toNat / 16384 = Y.val ∧ (idx (src b Y X c)).toNat / 64 % 256 = X.val
  then x (src b Y X c) else 0

/-- The unpooled array. -/
def unpool (x : SX.Idx → EReal) (idx : IVec SX 32) : SO.Idx → EReal :=
  fun i => unpoolAt x idx (i 0) (i 1) (i 2) (i 3)

/-- The lane's channel: lanes 0–63 and 64–127 of a row both carry the channels 0–63. -/
def chan (l : Fin 128) : Fin 64 := ⟨l.val % 64, by omega⟩

/-- The five-axis arrangement at (b, h, r, w, l): the value x[b, h, w, l mod 64] when bit 14 of its word is r and
    bit 6 is l / 64. -/
def unpool5At (x : SX.Idx → EReal) (idx : IVec SX 32) (b : Fin 32) (h : Fin 128) (r : Fin 2) (w l : Fin 128) : EReal :=
  if (idx (ix4 b h w (chan l))).toNat / 16384 % 2 = r.val ∧ (idx (ix4 b h w (chan l))).toNat / 64 % 2 = l.val / 64
  then x (ix4 b h w (chan l)) else 0

/-- The five-axis arrangement. -/
def unpool5 (x : SX.Idx → EReal) (idx : IVec SX 32) : S5.Idx → EReal :=
  fun i => unpool5At x idx (i 0) (i 1) (i 2) (i 3) (i 4)

theorem s5_casts : S5.ShapeCasts SO := by decide

/-- The five-axis arrangement read in row-major order at the shape [32, 256, 256, 64]. -/
def regroup (x : SX.Idx → EReal) (idx : IVec SX 32) : SO.Idx → EReal :=
  shapeCast SO (unpool5 x idx) s5_casts

end Cert.Unpool

end
-- ==== Proof.Words.lean ====
/-
  Bits of a 32-bit index word as quotients of its unsigned value: bit k of v is v.toNat / 2ᵏ mod 2, whatever the
  word's sign, and an arithmetic shift followed by a mask or a comparison with a small number reads off such
  quotients.
-/
import Idealize.ShloMosaic.PureOps
import Idealize.ShloMosaic.Lib.StableHlo.Predicate

namespace Cert.Unpool.Words

open Idealize.ShloMosaic Idealize.ShloMosaic.StableHlo.Predicate

/-- The low j bits of a word shifted right arithmetically by k places, when k + j ≤ 32, are bits k to k + j − 1 of
    the word itself: the sign bits the shift brings in sit at positions 32 − k and above, which the mask 2ʲ − 1
    clears. So the masked shift has the same bits as the masked logical shift, whose value is the quotient of
    the unsigned value by 2ᵏ, reduced mod 2ʲ. -/
private theorem toNat_sshr_and (v : BitVec 32) (k j : Nat) (hkj : k + j ≤ 32) :
    (v.sshiftRight k &&& BitVec.ofNat 32 (2 ^ j - 1)).toNat = v.toNat / 2 ^ k % 2 ^ j := by
  have hm : v.sshiftRight k &&& BitVec.ofNat 32 (2 ^ j - 1) = (v >>> k) &&& BitVec.ofNat 32 (2 ^ j - 1) := by
    apply BitVec.eq_of_getLsbD_eq
    intro i hi
    simp only [BitVec.getLsbD_and, BitVec.getLsbD_sshiftRight, BitVec.getLsbD_ushiftRight, BitVec.getLsbD_ofNat,
      Nat.testBit_two_pow_sub_one]
    by_cases hij : i < j
    · -- below the mask's width the shifted position k + i is still inside the word
      have h1 : k + i < 32 := by omega
      simp [h1, hi, hij]
    · -- at and above the mask's width both sides are zero
      simp [hij]
  have hlt : 2 ^ j - 1 < 2 ^ 32 := by
    have h1 : 2 ^ j ≤ 2 ^ 32 := Nat.pow_le_pow_right (by decide) (by omega)
    have h2 : 0 < 2 ^ j := Nat.two_pow_pos j
    omega
  rw [hm, BitVec.toNat_and, BitVec.toNat_ushiftRight, BitVec.toNat_ofNat, Nat.mod_eq_of_lt hlt,
    Nat.and_two_pow_sub_one_eq_mod, Nat.shiftRight_eq_div_pow]

/-- Bit 14 of the word (the low bit of the decoded row) is `r`. -/
theorem bit14 (v : BitVec 32) (r : Fin 2) :
    IntOp.cmpi .eq (IntOp.andi (IntOp.shrsi .vector v 14#32) 1#32) (BitVec.ofNat 32 r.val) = 1#1
      ↔ v.toNat / 16384 % 2 = r.val := by
  have hs : IntOp.shrsi .vector v 14#32 = v.sshiftRight 14 := by simp [IntOp.shrsi, BitVec.sshiftRight_eq']
  have hn := toNat_sshr_and v 14 1 (by decide)
  have hmask : (1#32 : BitVec 32) = BitVec.ofNat 32 (2 ^ 1 - 1) := by decide
  have hr := r.isLt
  rw [cmpi_eq_iff, hs, IntOp.andi, BitVec.toNat_eq, BitVec.toNat_ofNat, hmask, hn]
  omega

/-- Bit 6 of the word (the low bit of the decoded column) is `p`. -/
theorem bit6 (v : BitVec 32) (p : Fin 2) :
    IntOp.cmpi .eq (IntOp.andi (IntOp.shrsi .vector v 6#32) 1#32) (BitVec.ofNat 32 p.val) = 1#1
      ↔ v.toNat / 64 % 2 = p.val := by
  have hs : IntOp.shrsi .vector v 6#32 = v.sshiftRight 6 := by simp [IntOp.shrsi, BitVec.sshiftRight_eq']
  have hn := toNat_sshr_and v 6 1 (by decide)
  have hmask : (1#32 : BitVec 32) = BitVec.ofNat 32 (2 ^ 1 - 1) := by decide
  have hp := p.isLt
  rw [cmpi_eq_iff, hs, IntOp.andi, BitVec.toNat_eq, BitVec.toNat_ofNat, hmask, hn]
  omega

/-- The word shifted right by 15 places, sign extended, is the small number `h` exactly when its unsigned value
    has quotient `h` by 2¹⁵ (a negative word shifts to a negative one, and has a quotient of 2¹⁶ or more). -/
theorem own_row (v : BitVec 32) (h : Fin 128) :
    IntOp.cmpi .eq (IntOp.shrsi .host v 15#32) (BitVec.ofNat 32 h.val) = 1#1 ↔ v.toNat / 32768 = h.val := by
  have hs : IntOp.shrsi .host v 15#32 = v.sshiftRight 15 := by simp [IntOp.shrsi, BitVec.sshiftRight_eq']
  rw [cmpi_eq_iff, hs, BitVec.toNat_eq, BitVec.toNat_ofNat, BitVec.toNat_sshiftRight]
  have hh := h.isLt
  have hv := v.isLt
  rcases hmsb : v.msb with _ | _
  · -- a non-negative word: the shift is the quotient of the unsigned value by 2¹⁵
    have hb := BitVec.toNat_lt_of_msb_false hmsb
    simp only [Bool.false_eq_true, if_false, Nat.shiftRight_eq_div_pow]
    omega
  · -- a negative word: the shifted value is 2³² − 1 − (2³² − 1 − n) / 2¹⁵ ≥ 2³² − 2¹⁶, never below 128, and the
    -- quotient n / 2¹⁵ is at least 2¹⁶: both sides are false
    have hb := BitVec.toNat_ge_of_msb_true hmsb
    simp only [if_true, Nat.shiftRight_eq_div_pow]
    omega

/-- Bits 7 to 13 of the word are the small number `w`. -/
theorem own_col (v : BitVec 32) (w : Fin 128) :
    IntOp.cmpi .eq (IntOp.andi (IntOp.shrsi .host v 7#32) 127#32) (BitVec.ofNat 32 w.val) = 1#1
      ↔ v.toNat / 128 % 128 = w.val := by
  have hs : IntOp.shrsi .host v 7#32 = v.sshiftRight 7 := by simp [IntOp.shrsi, BitVec.sshiftRight_eq']
  have hn := toNat_sshr_and v 7 7 (by decide)
  have hmask : (127#32 : BitVec 32) = BitVec.ofNat 32 (2 ^ 7 - 1) := by decide
  have hw := w.isLt
  rw [cmpi_eq_iff, hs, IntOp.andi, BitVec.toNat_eq, BitVec.toNat_ofNat, hmask, hn]
  omega

end Cert.Unpool.Words
-- ==== Proof.PreDecode.lean ====
/-
  The precondition read back: where the printed predicate is all ones, every index word points into its own
  2×2 window.
-/
import proofs.«401000_j49581102465347_3_alg».proof.Pre_finite_inputs
import proofs.«401000_j49581102465347_3_alg».proof.Proof.Gen.Pre_finite_inputs
import proofs.«401000_j49581102465347_3_alg».proof.Proof.Spec
import proofs.«401000_j49581102465347_3_alg».proof.Proof.Words
import Idealize.ShloMosaic.Lib.ReduceAll
import Idealize.ShloMosaic.Lib.ValueIdx

noncomputable section

namespace Cert.Unpool

open Idealize.ShloMosaic Idealize.ShloMosaic.ValueIdx

/-- The conjunction of the two reductions is one only if the second is, and an all-reduction of a conjunction of
    two comparisons is one only if both hold at every position: the row comparison says the word shifted by 15 is
    the position's `h`, the column comparison that bits 7 to 13 are its `w`. -/
theorem own_of_pre (x : FVec Ideal SX .f32) (idx : IVec SX 32)
    (h : Cert.Pre_finite_inputs.fn (F := Ideal) x idx = fun _ => 1#1) : Own idx := by
  -- the predicate at its one index: a conjunction of the finiteness reduction and the window reduction
  have e := congrFun h ix0
  dsimp only [Cert.Pre_finite_inputs.fn] at e
  -- a conjunction of two bits is one only if each is: keep the window reduction
  have e2 := (IntOp.andi_eq_one.1 e).2
  -- the reduction's result has rank zero, so it has one index and every position reduces into it
  haveI : Subsingleton Cert.Pre_finite_inputs.S_.Idx := ⟨fun a b => funext fun d => d.elim0⟩
  intro b hh w c
  -- so the conjunction of the row and the column comparison is one at the position (b, h, w, c)
  have e3 := Host.reduce_andi_all _ _ _ _ _ e2 (ix4 b hh w c)
  obtain ⟨hr, hc⟩ := IntOp.andi_eq_one.1 e3
  -- at that position the broadcast constants are 15, 7 and 127, and the two iotas are the coordinates h and w
  have hr' : IntOp.cmpi .eq (IntOp.shrsi .host (idx (ix4 b hh w c)) 15#32) (BitVec.ofNat 32 hh.val) = 1#1 := hr
  have hc' : IntOp.cmpi .eq (IntOp.andi (IntOp.shrsi .host (idx (ix4 b hh w c)) 7#32) 127#32)
      (BitVec.ofNat 32 w.val) = 1#1 := hc
  exact ⟨(Words.own_row _ hh).1 hr', (Words.own_col _ w).1 hc'⟩

end Cert.Unpool

end
-- ==== Proof.Regroup.lean ====
/-
  The kernel's five-axis arrangement, read in row-major order at [32, 256, 256, 64], is the unpooled array when
  every word points into its own window: the cell (b, Y, X, c) is the five-axis cell (b, Y/2, Y mod 2, X/2,
  (X mod 2)·64 + c), and with the word's quotient by 2¹⁵ equal to Y/2 and bits 7–13 equal to X/2, "bit 14 is
  Y mod 2 and bit 6 is X mod 2" says the decoded row is Y and the decoded column is X.
-/
import proofs.«401000_j49581102465347_3_alg».proof.Proof.Spec
import Idealize.ShloMosaic.Lib.Pipeline.Value
import Idealize.ShloMosaic.Lib.ValueLayout

noncomputable section

namespace Cert.Unpool

open Idealize.ShloMosaic Idealize.ShloMosaic.ValueIdx

/-- The lane (X mod 2)·64 + c carries the channel c. -/
theorem chan_lane (X : Fin 256) (c : Fin 64) (hl : X.val % 2 * 64 + c.val < 128) :
    chan ⟨X.val % 2 * 64 + c.val, hl⟩ = c := by
  apply Fin.ext
  show (X.val % 2 * 64 + c.val) % 64 = c.val
  have := c.isLt
  omega

/-- Row-major positions: the cell (b, Y, X, c) of [32, 256, 256, 64] sits at the position of the cell
    (b, Y/2, Y mod 2, X/2, (X mod 2)·64 + c) of [32, 128, 2, 128, 128], since
    ((b·256 + Y)·256 + X)·64 + c = ((((b·128 + Y/2)·2 + Y mod 2)·128 + X/2)·128 + (X mod 2)·64 + c. -/
theorem regroup_at (x : SX.Idx → EReal) (idx : IVec SX 32) (b : Fin 32) (Y X : Fin 256) (c : Fin 64) :
    regroup x idx (ix4 b Y X c)
      = unpool5At x idx b ⟨Y.val / 2, by omega⟩ ⟨Y.val % 2, by omega⟩ ⟨X.val / 2, by omega⟩
          ⟨X.val % 2 * 64 + c.val, by have := c.isLt; omega⟩ := by
  unfold regroup
  exact shapeCast_apply (unpool5 x idx) s5_casts (ix4 b Y X c)
    (ix5 b (⟨Y.val / 2, by omega⟩ : Fin 128) (⟨Y.val % 2, by omega⟩ : Fin 2) (⟨X.val / 2, by omega⟩ : Fin 128)
      (⟨X.val % 2 * 64 + c.val, by have := c.isLt; omega⟩ : Fin 128)) (by
    rw [Shape.rowMajor_val_five, Shape.rowMajor_val_four]
    show (((b.val * 128 + Y.val / 2) * 2 + Y.val % 2) * 128 + X.val / 2) * 128 + (X.val % 2 * 64 + c.val)
        = ((b.val * 256 + Y.val) * 256 + X.val) * 64 + c.val
    omega)

/-- With the word's quotient by 2¹⁵ equal to Y/2 and its bits 7–13 equal to X/2, "bit 14 is Y mod 2 and bit 6 is
    X mod 2" is "the quotient by 2¹⁴ is Y and bits 6–13 are X": n / 2¹⁴ = 2·(n / 2¹⁵) + (n / 2¹⁴ mod 2) and
    n / 2⁶ mod 2⁸ = 2·(n / 2⁷ mod 2⁷) + (n / 2⁶ mod 2). -/
theorem bits_iff (n Y X c : Nat) (hc : c < 64) (h1 : n / 32768 = Y / 2) (h2 : n / 128 % 128 = X / 2) :
    (n / 16384 % 2 = Y % 2 ∧ n / 64 % 2 = (X % 2 * 64 + c) / 64) ↔ (n / 16384 = Y ∧ n / 64 % 256 = X) := by
  omega

/-- The five-axis cell (b, Y/2, Y mod 2, X/2, (X mod 2)·64 + c) holds the unpooled array's value at (b, Y, X, c). -/
theorem unpool5At_cell (x : SX.Idx → EReal) (idx : IVec SX 32) (hO : Own idx) (b : Fin 32) (Y X : Fin 256) (c : Fin 64) :
    unpool5At x idx b ⟨Y.val / 2, by omega⟩ ⟨Y.val % 2, by omega⟩ ⟨X.val / 2, by omega⟩
        ⟨X.val % 2 * 64 + c.val, by have := c.isLt; omega⟩
      = unpoolAt x idx b Y X c := by
  unfold unpool5At unpoolAt
  rw [chan_lane X c]
  have h := hO b ⟨Y.val / 2, by omega⟩ ⟨X.val / 2, by omega⟩ c
  exact if_congr (bits_iff _ Y.val X.val c.val c.isLt h.1 h.2) rfl rfl

theorem regroup_eq (x : SX.Idx → EReal) (idx : IVec SX 32) (hO : Own idx) : regroup x idx = unpool x idx := by
  funext i
  obtain ⟨b, Y, X, c, rfl⟩ : ∃ (b : Fin 32) (Y X : Fin 256) (c : Fin 64), i = ix4 b Y X c :=
    ⟨i 0, i 1, i 2, i 3, eq_ix4 i⟩
  rw [regroup_at, unpool5At_cell x idx hO]
  rfl

end Cert.Unpool

end
-- ==== Proof.KernelBlock.lean ====
/-
  What one grid point of the kernel leaves in its output block, cell by cell: the block of shape
  [1, 32, 2, 128, 128] holds at (0, h, r, w, l) the pooled value of the input block at (0, h, w, l mod 64) when bit
  14 of that position's index word is r and bit 6 is l / 64, and zero otherwise.  The two stores write the two
  row parities r = 0 and r = 1; each stored slab is two selections of the values side by side along the lanes,
  the lower 64 lanes for column parity 0 and the upper 64 for column parity 1.
-/
import proofs.«401000_j49581102465347_3_alg».proof.Proof.Gen.KernelIdeal.Frame
import proofs.«401000_j49581102465347_3_alg».proof.Proof.Spec
import proofs.«401000_j49581102465347_3_alg».proof.Proof.Words
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.KValue

open Cert.KernelIdeal Cert.KernelIdeal.Gen Idealize.ShloMosaic
open Idealize.ShloMosaic.ValueIdx Cert.Unpool

/-- Dropping the leading unit axis of a block [1, 32, 128, 64] keeps the three other coordinates. -/
theorem drop_unit_at {α : Type} (v : S1x32x128x64.Idx → α) (h : Fin 32) (w : Fin 128) (c : Fin 64) :
    shapeCast S32x128x64 v shapeCasts_S1x32x128x64_S32x128x64 (ix3 h w c) = v (ix4 (0 : Fin 1) h w c) := by
  refine shapeCast_apply v _ (ix3 h w c) (ix4 (0 : Fin 1) h w c) ?_
  rw [Shape.rowMajor_val_four, Shape.rowMajor_val_three]
  show ((0 * 32 + h.val) * 128 + w.val) * 64 + c.val = (h.val * 128 + w.val) * 64 + c.val
  omega

/-- A slab [32, 128, 128] stored as [1, 32, 1, 128, 128] keeps its three coordinates. -/
theorem add_units_at {α : Type} (v : S32x128x128.Idx → α) (h : Fin 32) (w l : Fin 128) :
    shapeCast S1x32x1x128x128 v shapeCasts_S32x128x128_S1x32x1x128x128 (ix5 (0 : Fin 1) h (0 : Fin 1) w l)
      = v (ix3 h w l) := by
  refine shapeCast_apply v _ (ix5 (0 : Fin 1) h (0 : Fin 1) w l) (ix3 h w l) ?_
  rw [Shape.rowMajor_val_five, Shape.rowMajor_val_three]
  show (h.val * 128 + w.val) * 128 + l.val = (((0 * 32 + h.val) * 1 + 0) * 128 + w.val) * 128 + l.val
  omega

/-- A select on a bit that is set exactly when `P` holds is the `if` on `P`. -/
theorem select_of_iff {α : Type} {c : BitVec 1} {P : Prop} [Decidable P] (hc : c = 1#1 ↔ P) (a b : α) :
    Scalar.select c a b = if P then a else b := by
  by_cases hP : P
  · rw [hc.mpr hP, select_one, if_pos hP]
  · rw [eq_zero_of_ne_one (fun h => hP (hc.mp h)), select_zero, if_neg hP]

/-- The zero vector reads zero. -/
theorem zero_at (i : S32x128x64.Idx) : k0_pay6 (F := Ideal) i = (0 : EReal) := by
  show Ideal.ofBits .f32 0x00000000#32 = 0
  exact Ideal.ofBits_zero_f32

/-- The whole-block rectangle reads the block itself. -/
theorem ld_whole {e : EltTy} (x : Vec Ideal S1x32x128x64 e) : View.ld x r0_0 = x :=
  View.ld_unit_zero (S := S1x32x128x64) (funext fun a => by
    match a with | ⟨0, _⟩ => rfl | ⟨1, _⟩ => rfl | ⟨2, _⟩ => rfl | ⟨3, _⟩ => rfl) _ x

/-- The cell (0, h, 1, w, l) is the cell (0, h, 0, w, l) of the slab at third coordinate 1. -/
theorem emb_slab1 (h : Fin 32) (w l : Fin 128) :
    r0_2.emb (ix5 (0 : Fin 1) h (0 : Fin 1) w l) = ix5 (0 : Fin 1) h (1 : Fin 2) w l := by
  funext a
  apply Fin.ext
  match a with
  | ⟨0, _⟩ => show 0 + 1 * 0 = 0; omega
  | ⟨1, _⟩ => show 0 + 1 * h.val = h.val; omega
  | ⟨2, _⟩ => show 1 + 1 * 0 = 1; omega
  | ⟨3, _⟩ => show 0 + 1 * w.val = w.val; omega
  | ⟨4, _⟩ => show 0 + 1 * l.val = l.val; omega

/-- The cell (0, h, 0, w, l) is the cell (0, h, 0, w, l) of the slab at third coordinate 0. -/
theorem emb_slab0 (h : Fin 32) (w l : Fin 128) :
    r0_1.emb (ix5 (0 : Fin 1) h (0 : Fin 1) w l) = ix5 (0 : Fin 1) h (0 : Fin 2) w l := by
  funext a
  apply Fin.ext
  match a with
  | ⟨0, _⟩ => show 0 + 1 * 0 = 0; omega
  | ⟨1, _⟩ => show 0 + 1 * h.val = h.val; omega
  | ⟨2, _⟩ => show 0 + 1 * 0 = 0; omega
  | ⟨3, _⟩ => show 0 + 1 * w.val = w.val; omega
  | ⟨4, _⟩ => show 0 + 1 * l.val = l.val; omega

/-- The two slabs tile the buffer along its third axis: the cell (0, h, r, w, l) lies in the slab at third
    coordinate r and holds that slab's value at (0, h, 0, w, l). -/
theorem canon_at (P1 P0 : Vec Ideal S1x32x1x128x128 .f32) (h : Fin 32) (r : Fin 2) (w l : Fin 128) :
    View.canon ([⟨r0_2, P1⟩, ⟨r0_1, P0⟩] : List (View.Piece (Elt Ideal) S1x32x2x128x128 .f32))
        (ix5 (0 : Fin 1) h r w l)
      = if r.val = 1 then P1 (ix5 (0 : Fin 1) h (0 : Fin 1) w l) else P0 (ix5 (0 : Fin 1) h (0 : Fin 1) w l) := by
  by_cases hr : r.val = 1
  · have e : r = (1 : Fin 2) := Fin.ext hr
    subst e
    rw [if_pos hr, ← emb_slab1 h w l]
    exact View.canon_cons_emb r0_2 P1 _ _
  · have e : r = (0 : Fin 2) := Fin.ext (by have := r.isLt; show r.val = 0; omega)
    subst e
    rw [if_neg hr]
    rw [View.canon_cons_of_not_mem _ _ (y := ix5 (0 : Fin 1) h (0 : Fin 2) w l) (by
      show ¬ _ ∈ r0_2.set
      rw [Rect.mem_set_unit]
      intro H
      have H2 := H (⟨2, by decide⟩ : Fin 5)
      have h2 : (1 : ℕ) ≤ 0 := H2.1
      omega)]
    rw [← emb_slab0 h w l]
    exact View.canon_cons_emb r0_1 P0 _ _

/-- Two vectors of 64 lanes side by side: lane l reads the first at l when l < 64 and the second at l − 64
    otherwise, that is, the vector numbered l / 64 at the channel l mod 64. -/
theorem concat_at {α : Type} (A B : S32x128x64.Idx → α) (h : Fin 32) (w l : Fin 128) :
    concatenate S32x128x128 2 [⟨S32x128x64, A⟩, ⟨S32x128x64, B⟩] concatenates_S32x128x64_S32x128x64_S32x128x128_d2
        (ix3 h w l)
      = if l.val / 64 = 0 then A (ix3 h w (chan l)) else B (ix3 h w (chan l)) := by
  by_cases hl : l.val / 64 = 0
  · rw [if_pos hl]
    refine concatenate_pair_apply_left (2 : Fin 3) A B _ (ix3 h w l) rfl (ix3 h w (chan l)) ?_
    intro b
    match b with
    | ⟨0, _⟩ => rfl
    | ⟨1, _⟩ => rfl
    | ⟨2, _⟩ => show l.val % 64 = l.val; omega
  · rw [if_neg hl]
    refine concatenate_pair_apply_right (2 : Fin 3) A B _ (ix3 h w l) rfl rfl (ix3 h w (chan l)) ?_ ?_
    · intro b hb
      match b, hb with
      | ⟨0, _⟩, _ => rfl
      | ⟨1, _⟩, _ => rfl
      | ⟨2, _⟩, hb => exact absurd rfl hb
    · show l.val % 64 + 64 = l.val
      have := l.isLt
      omega

/-- The index words' block without its unit axis, at (h, w, c). -/
theorem words_at (x1 : Vec Ideal S1x32x128x64 .i32) (h : Fin 32) (w : Fin 128) (c : Fin 64) :
    k0_pay2 (F := Ideal) x1 (ix3 h w c) = x1 (ix4 (0 : Fin 1) h w c) :=
  drop_unit_at x1 h w c

/-- The values' block without its unit axis, at (h, w, c). -/
theorem values_at (x0 : Vec Ideal S1x32x128x64 .f32) (h : Fin 32) (w : Fin 128) (c : Fin 64) :
    k0_pay5 (F := Ideal) x0 (ix3 h w c) = x0 (ix4 (0 : Fin 1) h w c) :=
  drop_unit_at x0 h w c

/-- Keeping a vector where the column bit (bit 6 of the word) is `p` and zero elsewhere, at (h, w, c). -/
theorem col_select_at (x1 : Vec Ideal S1x32x128x64 .i32) (x0 : Vec Ideal S1x32x128x64 .f32) (p : Fin 2)
    (h : Fin 32) (w : Fin 128) (c : Fin 64) :
    select (cmpi .eq (k0_pay4 (F := Ideal) x1) (broadcast S32x128x64 (BitVec.ofNat 32 p.val)))
        (k0_pay5 (F := Ideal) x0) (k0_pay6 (F := Ideal)) (ix3 h w c)
      = if ((x1 (ix4 (0 : Fin 1) h w c) : BitVec 32)).toNat / 64 % 2 = p.val
        then (x0 (ix4 (0 : Fin 1) h w c) : EReal) else 0 := by
  show Scalar.select (IntOp.cmpi .eq (IntOp.andi (IntOp.shrsi .vector (k0_pay2 (F := Ideal) x1 (ix3 h w c)) 6#32) 1#32)
      (BitVec.ofNat 32 p.val)) (k0_pay5 (F := Ideal) x0 (ix3 h w c)) (k0_pay6 (F := Ideal) (ix3 h w c)) = _
  rw [words_at, values_at, zero_at]
  exact select_of_iff (Words.bit6 _ p) _ _

/-- Keeping a vector where the row bit (bit 14 of the word) is `r` and zero elsewhere, at (h, w, c). -/
theorem row_select_at (x1 : Vec Ideal S1x32x128x64 .i32) (A : FVec Ideal S32x128x64 .f32) (r : Fin 2)
    (h : Fin 32) (w : Fin 128) (c : Fin 64) :
    select (cmpi .eq (k0_pay3 (F := Ideal) x1) (broadcast S32x128x64 (BitVec.ofNat 32 r.val)))
        A (k0_pay6 (F := Ideal)) (ix3 h w c)
      = if ((x1 (ix4 (0 : Fin 1) h w c) : BitVec 32)).toNat / 16384 % 2 = r.val
        then (A (ix3 h w c) : EReal) else 0 := by
  show Scalar.select (IntOp.cmpi .eq (IntOp.andi (IntOp.shrsi .vector (k0_pay2 (F := Ideal) x1 (ix3 h w c)) 14#32) 1#32)
      (BitVec.ofNat 32 r.val)) (A (ix3 h w c)) (k0_pay6 (F := Ideal) (ix3 h w c)) = _
  rw [words_at, zero_at]
  exact select_of_iff (Words.bit14 _ r) _ _

/-- The slab of row parity `r`: the two column selections of the values side by side along the lanes, each kept
    where the row bit is `r`.  At (h, w, l) it is the value at (0, h, w, l mod 64) when bit 14 of that position's word
    is r and bit 6 is l / 64, and zero otherwise. -/
theorem slab_at (x1 : Vec Ideal S1x32x128x64 .i32) (x0 : Vec Ideal S1x32x128x64 .f32) (r : Fin 2)
    (h : Fin 32) (w l : Fin 128) :
    concatenate S32x128x128 2
        [⟨S32x128x64, select (cmpi .eq (k0_pay3 (F := Ideal) x1) (broadcast S32x128x64 (BitVec.ofNat 32 r.val)))
            (k0_pay7 (F := Ideal) x1 x0) (k0_pay6 (F := Ideal))⟩,
         ⟨S32x128x64, select (cmpi .eq (k0_pay3 (F := Ideal) x1) (broadcast S32x128x64 (BitVec.ofNat 32 r.val)))
            (k0_pay8 (F := Ideal) x1 x0) (k0_pay6 (F := Ideal))⟩]
        concatenates_S32x128x64_S32x128x64_S32x128x128_d2 (ix3 h w l)
      = if ((x1 (ix4 (0 : Fin 1) h w (chan l)) : BitVec 32)).toNat / 16384 % 2 = r.val
            ∧ ((x1 (ix4 (0 : Fin 1) h w (chan l)) : BitVec 32)).toNat / 64 % 2 = l.val / 64
        then (x0 (ix4 (0 : Fin 1) h w (chan l)) : EReal) else 0 := by
  rw [concat_at]
  have hl2 : l.val / 64 = 0 ∨ l.val / 64 = 1 := by have := l.isLt; omega
  rcases hl2 with hl | hl
  · rw [if_pos hl, row_select_at, hl]
    have e := col_select_at x1 x0 (0 : Fin 2) h w (chan l)
    rw [show (k0_pay7 (F := Ideal) x1 x0) (ix3 h w (chan l)) = _ from e]
    show (if _ then (if _ = 0 then _ else _) else _) = _
    by_cases hr : ((x1 (ix4 (0 : Fin 1) h w (chan l)) : BitVec 32)).toNat / 16384 % 2 = r.val
    · by_cases hc : ((x1 (ix4 (0 : Fin 1) h w (chan l)) : BitVec 32)).toNat / 64 % 2 = 0
      · rw [if_pos hr, if_pos hc, if_pos ⟨hr, hc⟩]
      · rw [if_pos hr, if_neg hc, if_neg (fun H => hc H.2)]
    · rw [if_neg hr, if_neg (fun H => hr H.1)]
  · rw [if_neg (by omega), row_select_at, hl]
    have e := col_select_at x1 x0 (1 : Fin 2) h w (chan l)
    rw [show (k0_pay8 (F := Ideal) x1 x0) (ix3 h w (chan l)) = _ from e]
    show (if _ then (if _ = 1 then _ else _) else _) = _
    by_cases hr : ((x1 (ix4 (0 : Fin 1) h w (chan l)) : BitVec 32)).toNat / 16384 % 2 = r.val
    · by_cases hc : ((x1 (ix4 (0 : Fin 1) h w (chan l)) : BitVec 32)).toNat / 64 % 2 = 1
      · rw [if_pos hr, if_pos hc, if_pos ⟨hr, hc⟩]
      · rw [if_pos hr, if_neg hc, if_neg (fun H => hc H.2)]
    · rw [if_neg hr, if_neg (fun H => hr H.1)]

/-- One grid point's output block, cell by cell: at (0, h, r, w, l) the value at (0, h, w, l mod 64) when bit 14 of
    that position's word is r and bit 6 is l / 64, and zero otherwise.  The cell lies in the slab stored at third
    coordinate r, whose value there is the row-parity-r slab at (h, w, l). -/
theorem block_eq (x0 : Vec Ideal S1x32x128x64 .f32) (x1 : Vec Ideal S1x32x128x64 .i32)
    (h : Fin 32) (r : Fin 2) (w l : Fin 128) :
    out0_2 (F := Ideal) x0 x1 (ix5 (0 : Fin 1) h r w l)
      = if ((x1 (ix4 (0 : Fin 1) h w (chan l)) : BitVec 32)).toNat / 16384 % 2 = r.val
            ∧ ((x1 (ix4 (0 : Fin 1) h w (chan l)) : BitVec 32)).toNat / 64 % 2 = l.val / 64
        then (x0 (ix4 (0 : Fin 1) h w (chan l)) : EReal) else 0 := by
  unfold out0_2
  rw [ld_whole x1, ld_whole x0, canon_at]
  by_cases hr : r.val = 1
  · have e : r = (1 : Fin 2) := Fin.ext hr
    subst e
    rw [if_pos hr]
    refine (add_units_at (k0_pay9 (F := Ideal) x1 x0) h w l).trans ?_
    exact slab_at x1 x0 (1 : Fin 2) h w l
  · have e : r = (0 : Fin 2) := Fin.ext (by have := r.isLt; show r.val = 0; omega)
    subst e
    rw [if_neg hr]
    unfold k0_pay10
    refine (add_units_at _ h w l).trans ?_
    exact slab_at x1 x0 (0 : Fin 2) h w l

end Cert.KernelIdeal.KValue

end
-- ==== Proof.KernelValue.lean ====
/-
  The kernel program's run with its result named: the pipeline leaves the five-axis arrangement of the pooled
  values in the region's array, block by block, and the reshape after the region reads it in row-major order.

  The grid is 32 × 4.  The point (b, q) reads, of both arguments, the band of rows 32q … 32q + 31 of image b (a block
  of shape [1, 32, 128, 64] at the block index (b, q, 0, 0)) and writes the block of shape [1, 32, 2, 128, 128] at the
  block index (b, q, 0, 0, 0) of the five-axis array: the cell (0, h, r, w, l) of the block is the cell
  (b, 32q + h, r, w, l) of the array, and the cell (0, h, w, c) of an input block is the cell (b, 32q + h, w, c) of
  its argument.  So each written block is the five-axis arrangement restricted to it, the 128 blocks fill the array
  (the cell (b, H, r, w, l) lies in the block of the point (b, H / 32)), and the array ends as the arrangement.
-/
import proofs.«401000_j49581102465347_3_alg».proof.Proof.Gen.KernelIdeal.Frame
import proofs.«401000_j49581102465347_3_alg».proof.Proof.Spec
import proofs.«401000_j49581102465347_3_alg».proof.Proof.Words
import proofs.«401000_j49581102465347_3_alg».proof.Proof.KernelBlock
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.KValue

open Cert.KernelIdeal Cert.KernelIdeal.Gen Idealize.ShloMosaic Idealize.ShloMosaic.TcCoe Idealize.SL.Sem
open Idealize.ShloMosaic.ValueIdx Cert.Unpool

section Blocks

variable (m : (ℓ : Loc nD τ sig) → Buf (Elt Ideal) ℓ)

/-! ## The block indices over the grid -/

/-- At every grid point the two input windows sit at the output window's block index on the image and band axes,
    every window's block index is zero on the axes a block spans whole, and the output's block index is an image
    below 32 and a band below 4. -/
theorem block_index : ∀ t : Fin cfg0.N,
    win0_0.index t (0 : Fin 4) = win0_2.index t (0 : Fin 5)
    ∧ win0_0.index t (1 : Fin 4) = win0_2.index t (1 : Fin 5)
    ∧ win0_0.index t (2 : Fin 4) = 0 ∧ win0_0.index t (3 : Fin 4) = 0
    ∧ win0_1.index t (0 : Fin 4) = win0_2.index t (0 : Fin 5)
    ∧ win0_1.index t (1 : Fin 4) = win0_2.index t (1 : Fin 5)
    ∧ win0_1.index t (2 : Fin 4) = 0 ∧ win0_1.index t (3 : Fin 4) = 0
    ∧ win0_2.index t (2 : Fin 5) = 0 ∧ win0_2.index t (3 : Fin 5) = 0 ∧ win0_2.index t (4 : Fin 5) = 0
    ∧ win0_2.index t (0 : Fin 5) < 32 ∧ win0_2.index t (1 : Fin 5) < 4 :=
  (by decide +kernel : ∀ t : Fin grid0.N, _)

/-- Every pair of an image and a band is some grid point's output block index. -/
theorem block_index_onto : ∀ (b : Fin 32) (q : Fin 4), ∃ t : Fin cfg0.N, win0_2.index t = ![b.val, q.val, 0, 0, 0] :=
  (by decide +kernel : ∀ (b : Fin 32) (q : Fin 4), ∃ t : Fin grid0.N, win0_2.index t = ![b.val, q.val, 0, 0, 0])

/-! ## One written block is the arrangement restricted to it -/

/-- Row h of the q-th band of 32 rows is a row of the 128. -/
theorem band_lt (q : Fin 4) (h : Fin 32) : q.val * 32 + h.val < 128 := by omega

/-- One cell of a written block: when the two input blocks are band q of image B of x and of idx, the cell y of
    what the body leaves is the five-axis arrangement of x and idx at the array cell i that has y's coordinates
    inside band q of image B. -/
theorem cell_eq (x : SX.Idx → EReal) (idx : IVec SX 32)
    (x0 : Vec Ideal S1x32x128x64 .f32) (x1 : Vec Ideal S1x32x128x64 .i32) (B : Fin 32) (q : Fin 4)
    (hx0 : ∀ (h : Fin 32) (w : Fin 128) (c : Fin 64),
      x0 (ix4 (0 : Fin 1) h w c) = x (ix4 B (⟨q.val * 32 + h.val, band_lt q h⟩ : Fin 128) w c))
    (hx1 : ∀ (h : Fin 32) (w : Fin 128) (c : Fin 64),
      x1 (ix4 (0 : Fin 1) h w c) = idx (ix4 B (⟨q.val * 32 + h.val, band_lt q h⟩ : Fin 128) w c))
    (y : S1x32x2x128x128.Idx) (i : S5.Idx)
    (e0 : (i 0).val = B.val) (e1 : (i 1).val = q.val * 32 + (y 1).val) (e2 : (i 2).val = (y 2).val)
    (e3 : (i 3).val = (y 3).val) (e4 : (i 4).val = (y 4).val) :
    out0_2 (F := Ideal) x0 x1 y = unpool5 x idx i := by
  obtain ⟨a, h, r, w, l, rfl⟩ : ∃ (a : Fin 1) (h : Fin 32) (r : Fin 2) (w l : Fin 128), y = ix5 a h r w l :=
    ⟨y 0, y 1, y 2, y 3, y 4, eq_ix5 y⟩
  obtain ⟨b', H, r', w', l', rfl⟩ :
      ∃ (b' : Fin 32) (H : Fin 128) (r' : Fin 2) (w' l' : Fin 128), i = ix5 b' H r' w' l' :=
    ⟨i 0, i 1, i 2, i 3, i 4, eq_ix5 i⟩
  obtain rfl : a = 0 := Subsingleton.elim _ _
  obtain rfl : b' = B := Fin.ext e0
  obtain rfl : H = ⟨q.val * 32 + h.val, band_lt q h⟩ := Fin.ext e1
  obtain rfl : r' = r := Fin.ext e2
  obtain rfl : w' = w := Fin.ext e3
  obtain rfl : l' = l := Fin.ext e4
  rw [block_eq, hx0, hx1]
  rfl

/-- What grid point t writes back is block t of the five-axis arrangement of the two arguments: on every axis a
    block cell's array coordinate is the block index times the block's extent plus the coordinate inside the block,
    and the input blocks sit at the same image and band as the output block. -/
theorem written_block (c : Dev nD) (t : Fin cfg0.N) :
    (dats m 0 c).flushed 2 t
      = ((cfg0.win 2).blk t).view.read (Elt Ideal) (unpool5 (V m c main_arg0) (V m c main_arg1)) := by
  show (cfg0.win 2).cut (grid0.coords t) ((dats m 0 c).after 2 t) = _
  rw [after0_2]
  obtain ⟨f0, f1, f2, f3, g0, g1, g2, g3, o2, o3, o4, b0, b1⟩ := block_index t
  funext j
  refine cell_eq (V m c main_arg0) (V m c main_arg1) (iblk m c 0 t) (iblk m c 1 t)
    ⟨win0_2.index t (0 : Fin 5), b0⟩ ⟨win0_2.index t (1 : Fin 5), b1⟩ ?_ ?_ j
    (((cfg0.win 2).blk t).view.emb j) ?_ ?_ ?_ ?_ ?_
  · intro h w c'
    show V m c main_arg0 (((cfg0.win 0).blk t).view.emb (ix4 (0 : Fin 1) h w c')) = V m c main_arg0 _
    congr 1
    funext a
    apply Fin.ext
    match a with
    | ⟨0, _⟩ => show win0_0.index t (0 : Fin 4) * 1 + 1 * 0 = win0_2.index t (0 : Fin 5); omega
    | ⟨1, _⟩ => show win0_0.index t (1 : Fin 4) * 32 + 1 * h.val = win0_2.index t (1 : Fin 5) * 32 + h.val; omega
    | ⟨2, _⟩ => show win0_0.index t (2 : Fin 4) * 128 + 1 * w.val = w.val; omega
    | ⟨3, _⟩ => show win0_0.index t (3 : Fin 4) * 64 + 1 * c'.val = c'.val; omega
  · intro h w c'
    show V m c main_arg1 (((cfg0.win 1).blk t).view.emb (ix4 (0 : Fin 1) h w c')) = V m c main_arg1 _
    congr 1
    funext a
    apply Fin.ext
    match a with
    | ⟨0, _⟩ => show win0_1.index t (0 : Fin 4) * 1 + 1 * 0 = win0_2.index t (0 : Fin 5); omega
    | ⟨1, _⟩ => show win0_1.index t (1 : Fin 4) * 32 + 1 * h.val = win0_2.index t (1 : Fin 5) * 32 + h.val; omega
    | ⟨2, _⟩ => show win0_1.index t (2 : Fin 4) * 128 + 1 * w.val = w.val; omega
    | ⟨3, _⟩ => show win0_1.index t (3 : Fin 4) * 64 + 1 * c'.val = c'.val; omega
  · show win0_2.index t (0 : Fin 5) * 1 + 1 * (j 0).val = win0_2.index t (0 : Fin 5)
    have hj : (j 0).val < 1 := (j 0).isLt
    omega
  · show win0_2.index t (1 : Fin 5) * 32 + 1 * (j 1).val = win0_2.index t (1 : Fin 5) * 32 + (j 1).val
    omega
  · show win0_2.index t (2 : Fin 5) * 2 + 1 * (j 2).val = (j 2).val
    omega
  · show win0_2.index t (3 : Fin 5) * 128 + 1 * (j 3).val = (j 3).val
    omega
  · show win0_2.index t (4 : Fin 5) * 128 + 1 * (j 4).val = (j 4).val
    omega

/-! ## The blocks fill the array -/

/-- A cell of the array is in point t's block iff each coordinate is in the block's range on its axis. -/
theorem mem_blk (t : Fin cfg0.N) (i : S5.Idx) :
    i ∈ ((cfg0.win 2).blk t).view.set ↔ ∀ a : Fin 5, win0_2.index t a * S1x32x2x128x128.size a ≤ (i a).val
      ∧ (i a).val < win0_2.index t a * S1x32x2x128x128.size a + S1x32x2x128x128.size a := by
  show i ∈ ((View.whole main_v0).slice (win0_2.rect t)).set ↔ _
  rw [View.set_slice_whole, Rect.mem_set_unit]
  exact Iff.rfl

/-- The cell (b, H, r, w, l) of the array is in the block of the grid point with block index (b, H / 32): row H is
    row H mod 32 of band H / 32. -/
theorem cover (i : S5.Idx) : ∃ t : Fin cfg0.N, (cfg0.win 2).flush t = true ∧ i ∈ ((cfg0.win 2).blk t).view.set := by
  have h0 : (i 0).val < 32 := (i 0).isLt
  have h1 : (i 1).val < 128 := (i 1).isLt
  have h2 : (i 2).val < 2 := (i 2).isLt
  have h3 : (i 3).val < 128 := (i 3).isLt
  have h4 : (i 4).val < 128 := (i 4).isLt
  obtain ⟨t, ht⟩ := block_index_onto ⟨(i 0).val, h0⟩ ⟨(i 1).val / 32, by omega⟩
  have q0 : win0_2.index t (0 : Fin 5) = (i 0).val := congrFun ht 0
  have q1 : win0_2.index t (1 : Fin 5) = (i 1).val / 32 := congrFun ht 1
  have q2 : win0_2.index t (2 : Fin 5) = 0 := congrFun ht 2
  have q3 : win0_2.index t (3 : Fin 5) = 0 := congrFun ht 3
  have q4 : win0_2.index t (4 : Fin 5) = 0 := congrFun ht 4
  refine ⟨t, flush0_2 t, ?_⟩
  rw [mem_blk]
  intro a
  match a with
  | ⟨0, _⟩ =>
    show win0_2.index t (0 : Fin 5) * 1 ≤ (i 0).val ∧ (i 0).val < win0_2.index t (0 : Fin 5) * 1 + 1; omega
  | ⟨1, _⟩ =>
    show win0_2.index t (1 : Fin 5) * 32 ≤ (i 1).val ∧ (i 1).val < win0_2.index t (1 : Fin 5) * 32 + 32; omega
  | ⟨2, _⟩ =>
    show win0_2.index t (2 : Fin 5) * 2 ≤ (i 2).val ∧ (i 2).val < win0_2.index t (2 : Fin 5) * 2 + 2; omega
  | ⟨3, _⟩ =>
    show win0_2.index t (3 : Fin 5) * 128 ≤ (i 3).val ∧ (i 3).val < win0_2.index t (3 : Fin 5) * 128 + 128; omega
  | ⟨4, _⟩ =>
    show win0_2.index t (4 : Fin 5) * 128 ≤ (i 4).val ∧ (i 4).val < win0_2.index t (4 : Fin 5) * 128 + 128; omega

/-- So the region's array ends as the five-axis arrangement of the two arguments. -/
theorem array_eq (c : Dev nD) :
    (dats m 0 c).arrAt 2 cfg0.N = unpool5 (V m c main_arg0) (V m c main_arg1) :=
  (dats m 0 c).arrAt_eq_of_cover 2 (unpool5 (V m c main_arg0) (V m c main_arg1))
    (fun t _ => written_block m c t) cover

/-! ## The reshape after the region -/

/-- The result buffer after the reshape: the region's array, which is the five-axis arrangement, read in row-major
    order at the shape [32, 256, 256, 64]. -/
theorem reshaped_eq (c : Dev nD) :
    Pipeline.afterTail₀ cfgs (dats m) 0 (V0 m) [hostOps1] c main_v1
      = regroup (V m c main_arg0) (V m c main_arg1) := by
  unfold Pipeline.afterTail₀
  show StableHlo.after hostOps1 _ (Proc.devRef .tc main_v1) = _
  after_results
  have e : Pipeline.withArrays (cfgs 0).spec c (V0 m c) (fun w => (dats m 0 c).arrAt w (cfgs 0).N)
      (Proc.devRef .tc main_v0) = unpool5 (V m c main_arg0) (V m c main_arg1) :=
    (Pipeline.withArrays_arr spec0 launch0.win.arr_inj c _ _ 2).trans (array_eq m c)
  rw [e]
  rfl

/-- The result buffer bypasses the region: it is unscoped and is no window's array. -/
theorem result_bypasses : main_v1 ∈ Pipeline.restRefs sig (cfgs 0).spec :=
  Pipeline.mem_restRefs_of main_v1 rfl (by intro w; fin_cases w <;> decide)

end Blocks

/-! ## The run -/

/-- The kernel program's run: the result buffer ends at the five-axis arrangement of the two arguments read in
    row-major order, and both arguments are as they were. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v1)
          = regroup (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h c).2 main_v1 result_bypasses).trans (reshaped_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.KValue

end
-- ==== Proof.RefTerm.lean ====
/-
  The reference program's result as one pure term of its two arguments, operation by operation as the printed
  @main composes them: jnp's floor division and remainder of the index words by 2¹⁴ and 2⁶ (each a truncating
  quotient or remainder corrected where the signs differ), the four index components — batch, decoded row,
  decoded column, channel, each with a negative value wrapped once by its axis' extent — laid side by side as
  the index vectors of a scatter, and the scatter-add of the pooled values into a zero array.
-/
import proofs.«401000_j49581102465347_3_alg».proof.ReferenceIdeal

noncomputable section

namespace Cert.ReferenceIdeal.Ref

open Idealize.ShloMosaic Cert.ReferenceIdeal
open Cert.ReferenceIdeal.Facts₀ Cert.ReferenceIdeal.Facts

variable {F : FTy → Type} [FloatOps F] [Cert.ReferenceIdeal.Facts]

/-- A scalar word along the whole pooled shape. -/
abbrev splat {w : Nat} (k : IVec S_ w) : IVec S32x128x128x64 w :=
  broadcastInDim S32x128x128x64 ![] bcast_S_S32x128x128x64 k

/-- jnp's floor division of every word by the scalar word `k`: the truncating quotient, less one where the signs
    of dividend and divisor differ and the remainder is not zero. -/
def fdiv (a : IVec S32x128x128x64 32) (k : IVec S_ 32) : IVec S32x128x128x64 32 :=
  let v0 : IVec S_ 32 := id k
  let v2 : IVec S32x128x128x64 32 := Host.divsi a (splat v0)
  let v6 : IVec S32x128x128x64 1 := cmpi .ne (signi a) (splat (signi v0))
  let v8 : IVec S32x128x128x64 32 := Host.remsi a (splat v0)
  let v10 : IVec S32x128x128x64 1 := cmpi .ne v8 (splat (constantI S_ 32 0#32))
  let v11 : IVec S32x128x128x64 1 := andi v6 v10
  let v13 : IVec S32x128x128x64 32 := subi v2 (splat (constantI S_ 32 1#32))
  select v11 v13 v2

/-- The divisor jnp's remainder uses: `k`, or one where `k` is zero. -/
def remDivisor (k : IVec S_ 32) : IVec S_ 32 :=
  let v0 : IVec S_ 32 := id k
  select (cmpi .eq v0 (constantI S_ 32 0#32)) (constantI S_ 32 1#32) v0

/-- jnp's remainder of every word by the scalar word `k`: the truncating remainder, plus the divisor where it is
    not zero and its sign differs from the divisor's. -/
def rem (a : IVec S32x128x128x64 32) (k : IVec S_ 32) : IVec S32x128x128x64 32 :=
  let v2 : IVec S_ 32 := remDivisor k
  let v4 : IVec S32x128x128x64 32 := Host.remsi a (splat v2)
  let v6 : IVec S32x128x128x64 1 := cmpi .ne v4 (splat (constantI S_ 32 0#32))
  let v8 : IVec S32x128x128x64 1 := cmpi .slt v4 (splat (constantI S_ 32 0#32))
  let v9 : IVec S_ 1 := cmpi .slt v2 (constantI S_ 32 0#32)
  let v11 : IVec S32x128x128x64 1 := cmpi .ne v8 (splat v9)
  let v12 : IVec S32x128x128x64 1 := andi v11 v6
  let v14 : IVec S32x128x128x64 32 := addi v4 (splat v2)
  select v12 v14 v4

/-- The decoded output row of every word: its floor quotient by 2¹⁴. -/
def rowOf (idx : IVec S32x128x128x64 32) : IVec S32x128x128x64 32 := fdiv idx (constantI S_ 32 16384#32)

/-- The decoded output column of every word: the floor quotient by 2⁶ of its remainder by 2¹⁴. -/
def colOf (idx : IVec S32x128x128x64 32) : IVec S32x128x128x64 32 :=
  fdiv (rem idx (constantI S_ 32 16384#32)) (constantI S_ 32 64#32)

/-- A component along the pooled shape with its negative values wrapped once by the axis' extent `n`. -/
def wrap (a : IVec S32x128x128x64 32) (n : BitVec 32) : IVec S32x128x128x64 32 :=
  select (cmpi .slt a (splat (constantI S_ 32 0#32))) (addi a (splat (constantI S_ 32 n))) a

/-- The batch component: the position's own batch number. -/
def batchOf : IVec S32x128x128x64 32 :=
  let v4 : IVec S32x1x1x1 32 := broadcastInDim S32x1x1x1 ![0] bcast_S32_S32x1x1x1_0 (iotaInDim S32 32 0)
  let v9 : IVec S32x1x1x1 1 := cmpi .slt v4 (broadcastInDim S32x1x1x1 ![] bcast_S_S32x1x1x1 (constantI S_ 32 0#32))
  let v11 : IVec S32x1x1x1 32 := addi v4 (broadcastInDim S32x1x1x1 ![] bcast_S_S32x1x1x1 (constantI S_ 32 32#32))
  let v12 : IVec S32x1x1x1 32 := select v9 v11 v4
  broadcastInDim S32x128x128x64 ![0, 1, 2, 3] bcast_S32x1x1x1_S32x128x128x64_0_1_2_3 v12

/-- The channel component: the position's own channel number. -/
def chanOf : IVec S32x128x128x64 32 :=
  let v6 : IVec S1x1x1x64 32 := broadcastInDim S1x1x1x64 ![3] bcast_S64_S1x1x1x64_3 (iotaInDim S64 32 0)
  let v24 : IVec S1x1x1x64 1 := cmpi .slt v6 (broadcastInDim S1x1x1x64 ![] bcast_S_S1x1x1x64 (constantI S_ 32 0#32))
  let v26 : IVec S1x1x1x64 32 := addi v6 (broadcastInDim S1x1x1x64 ![] bcast_S_S1x1x1x64 (constantI S_ 32 64#32))
  let v27 : IVec S1x1x1x64 32 := select v24 v26 v6
  broadcastInDim S32x128x128x64 ![0, 1, 2, 3] bcast_S1x1x1x64_S32x128x128x64_0_1_2_3 v27

/-- A component as a trailing axis of length one. -/
abbrev col1 (a : IVec S32x128x128x64 32) : IVec S32x128x128x64x1 32 :=
  broadcastInDim S32x128x128x64x1 ![0, 1, 2, 3] bcast_S32x128x128x64_S32x128x128x64x1_0_1_2_3 a

/-- The scatter's index vectors: (batch, row, column, channel) for every pooled position. -/
def ivec (idx : IVec S32x128x128x64 32) : IVec S32x128x128x64x4 32 :=
  concatenate S32x128x128x64x4 4
    [⟨S32x128x128x64x1, col1 batchOf⟩, ⟨S32x128x128x64x1, col1 (wrap (rowOf idx) 256#32)⟩,
     ⟨S32x128x128x64x1, col1 (wrap (colOf idx) 256#32)⟩, ⟨S32x128x128x64x1, col1 chanOf⟩]
    concatenates_S32x128x128x64x1_S32x128x128x64x1_S32x128x128x64x1_S32x128x128x64x1_S32x128x128x64x4_d4

/-- The zero array the scatter adds into. -/
def zeros : FVec F S32x256x256x64 .f32 :=
  broadcastInDim S32x256x256x64 ![] bcast_S_S32x256x256x64 (constant S_ .f32 0x00000000#32)

/-- The reference's result: the pooled values scatter-added into zeros at their index vectors. -/
def refOut (x : FVec F S32x128x128x64 .f32) (idx : IVec S32x128x128x64 32) : FVec F S32x256x256x64 .f32 :=
  Host.scatterAdd scatter_S32x256x256x64_S32x128x128x64x4_S32x128x128x64_n_0123_0123_4 (zeros (F := F)) (ivec idx) x

end Cert.ReferenceIdeal.Ref

end
-- ==== Proof.RefRun.lean ====
/-
  The reference program's run: its @main is a straight line of host operations (the outlined floor division,
  remainder and selection inlined at their calls), so every execution ends with the result buffer at the
  operations' composed term of the two arguments, and the arguments as they were.
-/
import proofs.«401000_j49581102465347_3_alg».proof.Proof.RefTerm
import proofs.«401000_j49581102465347_3_alg».proof.Proof.Gen.ReferenceIdeal
import Idealize.ShloMosaic.Lib.StableHlo.Run

noncomputable section

namespace Cert.ReferenceIdeal.Ref

open Cert.ReferenceIdeal Cert.ReferenceIdeal.Gen Idealize.ShloMosaic Idealize.ShloMosaic.TcCoe Idealize.SL.Sem Idealize.ShloMosaic.StableHlo

variable {F : FTy → Type} [FloatOps F]

namespace Line

/-! The straight line itself: its operations as a list, that @main is that list run in order, and what the list
    leaves at the result buffer and at the two arguments. -/

/-- The operations before the concatenate, in order, each outlined function's lines standing at its call over the
    call's own buffers: the constant 2¹⁴ and the floor division by it (seventeen lines), the constant again and the
    remainder by it (twenty-one), the constant 2⁶ and the floor division of that remainder by it (seventeen), then
    @main's own forty: the two iotas, the zero array, the four wraps and the six broadcasts. -/
abbrev opsHead : List (HloOp τ sig (Elt F)) :=
  [ nullary main_c (constantI S_ 32 16384#32),
    TRef.unary (.of main_c) main_call0.v0 id,
    TRef.unary main_call0.v0 main_call0.v1 (broadcastInDim S32x128x128x64 ![] bcast_S_S32x128x128x64),
    TRef.binary (.of main_arg1) main_call0.v1 main_call0.v2 Host.divsi,
    TRef.unary (.of main_arg1) main_call0.v3 signi,
    TRef.unary main_call0.v0 main_call0.v4 signi,
    TRef.unary main_call0.v4 main_call0.v5 (broadcastInDim S32x128x128x64 ![] bcast_S_S32x128x128x64),
    TRef.binary main_call0.v3 main_call0.v5 main_call0.v6 (cmpi .ne),
    TRef.unary main_call0.v0 main_call0.v7 (broadcastInDim S32x128x128x64 ![] bcast_S_S32x128x128x64),
    TRef.binary (.of main_arg1) main_call0.v7 main_call0.v8 Host.remsi,
    TRef.nullary main_call0.c (constantI S_ 32 0#32),
    TRef.unary main_call0.c main_call0.v9 (broadcastInDim S32x128x128x64 ![] bcast_S_S32x128x128x64),
    TRef.binary main_call0.v8 main_call0.v9 main_call0.v10 (cmpi .ne),
    TRef.binary main_call0.v6 main_call0.v10 main_call0.v11 andi,
    TRef.nullary main_call0.c_0 (constantI S_ 32 1#32),
    TRef.unary main_call0.c_0 main_call0.v12 (broadcastInDim S32x128x128x64 ![] bcast_S_S32x128x128x64),
    TRef.binary main_call0.v2 main_call0.v12 main_call0.v13 subi,
    TRef.ternary main_call0.v11 main_call0.v13 main_call0.v2 main_call0.call0.v0 select,
    nullary main_c_0 (constantI S_ 32 16384#32),
    TRef.unary (.of main_c_0) main_call1.v0 id,
    TRef.nullary main_call1.c (constantI S_ 32 0#32),
    TRef.binary main_call1.v0 main_call1.c main_call1.v1 (cmpi .eq),
    TRef.nullary main_call1.c_0 (constantI S_ 32 1#32),
    TRef.ternary main_call1.v1 main_call1.c_0 main_call1.v0 main_call1.call0.v0 select,
    TRef.unary main_call1.call0.v0 main_call1.v3 (broadcastInDim S32x128x128x64 ![] bcast_S_S32x128x128x64),
    TRef.binary (.of main_arg1) main_call1.v3 main_call1.v4 Host.remsi,
    TRef.nullary main_call1.c_1 (constantI S_ 32 0#32),
    TRef.unary main_call1.c_1 main_call1.v5 (broadcastInDim S32x128x128x64 ![] bcast_S_S32x128x128x64),
    TRef.binary main_call1.v4 main_call1.v5 main_call1.v6 (cmpi .ne),
    TRef.nullary main_call1.c_2 (constantI S_ 32 0#32),
    TRef.unary main_call1.c_2 main_call1.v7 (broadcastInDim S32x128x128x64 ![] bcast_S_S32x128x128x64),
    TRef.binary main_call1.v4 main_call1.v7 main_call1.v8 (cmpi .slt),
    TRef.nullary main_call1.c_3 (constantI S_ 32 0#32),
    TRef.binary main_call1.call0.v0 main_call1.c_3 main_call1.v9 (cmpi .slt),
    TRef.unary main_call1.v9 main_call1.v10 (broadcastInDim S32x128x128x64 ![] bcast_S_S32x128x128x64),
    TRef.binary main_call1.v8 main_call1.v10 main_call1.v11 (cmpi .ne),
    TRef.binary main_call1.v11 main_call1.v6 main_call1.v12 andi,
    TRef.unary main_call1.call0.v0 main_call1.v13 (broadcastInDim S32x128x128x64 ![] bcast_S_S32x128x128x64),
    TRef.binary main_call1.v4 main_call1.v13 main_call1.v14 addi,
    TRef.ternary main_call1.v12 main_call1.v14 main_call1.v4 main_call1.v15 select,
    nullary main_c_1 (constantI S_ 32 64#32),
    TRef.unary (.of main_c_1) main_call2.v0 id,
    TRef.unary main_call2.v0 main_call2.v1 (broadcastInDim S32x128x128x64 ![] bcast_S_S32x128x128x64),
    TRef.binary (.of main_v1) main_call2.v1 main_call2.v2 Host.divsi,
    TRef.unary (.of main_v1) main_call2.v3 signi,
    TRef.unary main_call2.v0 main_call2.v4 signi,
    TRef.unary main_call2.v4 main_call2.v5 (broadcastInDim S32x128x128x64 ![] bcast_S_S32x128x128x64),
    TRef.binary main_call2.v3 main_call2.v5 main_call2.v6 (cmpi .ne),
    TRef.unary main_call2.v0 main_call2.v7 (broadcastInDim S32x128x128x64 ![] bcast_S_S32x128x128x64),
    TRef.binary (.of main_v1) main_call2.v7 main_call2.v8 Host.remsi,
    TRef.nullary main_call2.c (constantI S_ 32 0#32),
    TRef.unary main_call2.c main_call2.v9 (broadcastInDim S32x128x128x64 ![] bcast_S_S32x128x128x64),
    TRef.binary main_call2.v8 main_call2.v9 main_call2.v10 (cmpi .ne),
    TRef.binary main_call2.v6 main_call2.v10 main_call2.v11 andi,
    TRef.nullary main_call2.c_0 (constantI S_ 32 1#32),
    TRef.unary main_call2.c_0 main_call2.v12 (broadcastInDim S32x128x128x64 ![] bcast_S_S32x128x128x64),
    TRef.binary main_call2.v2 main_call2.v12 main_call2.v13 subi,
    TRef.ternary main_call2.v11 main_call2.v13 main_call2.v2 main_call2.call0.v0 select,
    nullary main_v3 (iotaInDim S32 32 0),
    unary main_v3 main_v4 (broadcastInDim S32x1x1x1 ![0] bcast_S32_S32x1x1x1_0 : (⟨S32, .i32⟩ : BufTy).Contents (Elt F) → (⟨S32x1x1x1, .i32⟩ : BufTy).Contents (Elt F)),
    nullary main_v5 (iotaInDim S64 32 0),
    unary main_v5 main_v6 (broadcastInDim S1x1x1x64 ![3] bcast_S64_S1x1x1x64_3 : (⟨S64, .i32⟩ : BufTy).Contents (Elt F) → (⟨S1x1x1x64, .i32⟩ : BufTy).Contents (Elt F)),
    nullary main_cst (constant S_ .f32 0x00000000#32),
    unary main_cst main_v7 (broadcastInDim S32x256x256x64 ![] bcast_S_S32x256x256x64 : (⟨S_, .f32⟩ : BufTy).Contents (Elt F) → (⟨S32x256x256x64, .f32⟩ : BufTy).Contents (Elt F)),
    nullary main_c_2 (constantI S_ 32 0#32),
    unary main_c_2 main_v8 (broadcastInDim S32x1x1x1 ![] bcast_S_S32x1x1x1 : (⟨S_, .i32⟩ : BufTy).Contents (Elt F) → (⟨S32x1x1x1, .i32⟩ : BufTy).Contents (Elt F)),
    binary main_v4 main_v8 main_v9 (cmpi .slt : (⟨S32x1x1x1, .i32⟩ : BufTy).Contents (Elt F) → (⟨S32x1x1x1, .i32⟩ : BufTy).Contents (Elt F) → (⟨S32x1x1x1, .i1⟩ : BufTy).Contents (Elt F)),
    nullary main_c_3 (constantI S_ 32 32#32),
    unary main_c_3 main_v10 (broadcastInDim S32x1x1x1 ![] bcast_S_S32x1x1x1 : (⟨S_, .i32⟩ : BufTy).Contents (Elt F) → (⟨S32x1x1x1, .i32⟩ : BufTy).Contents (Elt F)),
    binary main_v4 main_v10 main_v11 (addi : (⟨S32x1x1x1, .i32⟩ : BufTy).Contents (Elt F) → (⟨S32x1x1x1, .i32⟩ : BufTy).Contents (Elt F) → (⟨S32x1x1x1, .i32⟩ : BufTy).Contents (Elt F)),
    ternary main_v9 main_v11 main_v4 main_v12 (select : (⟨S32x1x1x1, .i1⟩ : BufTy).Contents (Elt F) → (⟨S32x1x1x1, .i32⟩ : BufTy).Contents (Elt F) → (⟨S32x1x1x1, .i32⟩ : BufTy).Contents (Elt F) → (⟨S32x1x1x1, .i32⟩ : BufTy).Contents (Elt F)),
    nullary main_c_4 (constantI S_ 32 0#32),
    unary main_c_4 main_v13 (broadcastInDim S32x128x128x64 ![] bcast_S_S32x128x128x64 : (⟨S_, .i32⟩ : BufTy).Contents (Elt F) → (⟨S32x128x128x64, .i32⟩ : BufTy).Contents (Elt F)),
    binary main_v0 main_v13 main_v14 (cmpi .slt : (⟨S32x128x128x64, .i32⟩ : BufTy).Contents (Elt F) → (⟨S32x128x128x64, .i32⟩ : BufTy).Contents (Elt F) → (⟨S32x128x128x64, .i1⟩ : BufTy).Contents (Elt F)),
    nullary main_c_5 (constantI S_ 32 256#32),
    unary main_c_5 main_v15 (broadcastInDim S32x128x128x64 ![] bcast_S_S32x128x128x64 : (⟨S_, .i32⟩ : BufTy).Contents (Elt F) → (⟨S32x128x128x64, .i32⟩ : BufTy).Contents (Elt F)),
    binary main_v0 main_v15 main_v16 (addi : (⟨S32x128x128x64, .i32⟩ : BufTy).Contents (Elt F) → (⟨S32x128x128x64, .i32⟩ : BufTy).Contents (Elt F) → (⟨S32x128x128x64, .i32⟩ : BufTy).Contents (Elt F)),
    ternary main_v14 main_v16 main_v0 main_v17 (select : (⟨S32x128x128x64, .i1⟩ : BufTy).Contents (Elt F) → (⟨S32x128x128x64, .i32⟩ : BufTy).Contents (Elt F) → (⟨S32x128x128x64, .i32⟩ : BufTy).Contents (Elt F) → (⟨S32x128x128x64, .i32⟩ : BufTy).Contents (Elt F)),
    nullary main_c_6 (constantI S_ 32 0#32),
    unary main_c_6 main_v18 (broadcastInDim S32x128x128x64 ![] bcast_S_S32x128x128x64 : (⟨S_, .i32⟩ : BufTy).Contents (Elt F) → (⟨S32x128x128x64, .i32⟩ : BufTy).Contents (Elt F)),
    binary main_v2 main_v18 main_v19 (cmpi .slt : (⟨S32x128x128x64, .i32⟩ : BufTy).Contents (Elt F) → (⟨S32x128x128x64, .i32⟩ : BufTy).Contents (Elt F) → (⟨S32x128x128x64, .i1⟩ : BufTy).Contents (Elt F)),
    nullary main_c_7 (constantI S_ 32 256#32),
    unary main_c_7 main_v20 (broadcastInDim S32x128x128x64 ![] bcast_S_S32x128x128x64 : (⟨S_, .i32⟩ : BufTy).Contents (Elt F) → (⟨S32x128x128x64, .i32⟩ : BufTy).Contents (Elt F)),
    binary main_v2 main_v20 main_v21 (addi : (⟨S32x128x128x64, .i32⟩ : BufTy).Contents (Elt F) → (⟨S32x128x128x64, .i32⟩ : BufTy).Contents (Elt F) → (⟨S32x128x128x64, .i32⟩ : BufTy).Contents (Elt F)),
    ternary main_v19 main_v21 main_v2 main_v22 (select : (⟨S32x128x128x64, .i1⟩ : BufTy).Contents (Elt F) → (⟨S32x128x128x64, .i32⟩ : BufTy).Contents (Elt F) → (⟨S32x128x128x64, .i32⟩ : BufTy).Contents (Elt F) → (⟨S32x128x128x64, .i32⟩ : BufTy).Contents (Elt F)),
    nullary main_c_8 (constantI S_ 32 0#32),
    unary main_c_8 main_v23 (broadcastInDim S1x1x1x64 ![] bcast_S_S1x1x1x64 : (⟨S_, .i32⟩ : BufTy).Contents (Elt F) → (⟨S1x1x1x64, .i32⟩ : BufTy).Contents (Elt F)),
    binary main_v6 main_v23 main_v24 (cmpi .slt : (⟨S1x1x1x64, .i32⟩ : BufTy).Contents (Elt F) → (⟨S1x1x1x64, .i32⟩ : BufTy).Contents (Elt F) → (⟨S1x1x1x64, .i1⟩ : BufTy).Contents (Elt F)),
    nullary main_c_9 (constantI S_ 32 64#32),
    unary main_c_9 main_v25 (broadcastInDim S1x1x1x64 ![] bcast_S_S1x1x1x64 : (⟨S_, .i32⟩ : BufTy).Contents (Elt F) → (⟨S1x1x1x64, .i32⟩ : BufTy).Contents (Elt F)),
    binary main_v6 main_v25 main_v26 (addi : (⟨S1x1x1x64, .i32⟩ : BufTy).Contents (Elt F) → (⟨S1x1x1x64, .i32⟩ : BufTy).Contents (Elt F) → (⟨S1x1x1x64, .i32⟩ : BufTy).Contents (Elt F)),
    ternary main_v24 main_v26 main_v6 main_v27 (select : (⟨S1x1x1x64, .i1⟩ : BufTy).Contents (Elt F) → (⟨S1x1x1x64, .i32⟩ : BufTy).Contents (Elt F) → (⟨S1x1x1x64, .i32⟩ : BufTy).Contents (Elt F) → (⟨S1x1x1x64, .i32⟩ : BufTy).Contents (Elt F)),
    unary main_v12 main_v28 (broadcastInDim S32x128x128x64 ![0, 1, 2, 3] bcast_S32x1x1x1_S32x128x128x64_0_1_2_3 : (⟨S32x1x1x1, .i32⟩ : BufTy).Contents (Elt F) → (⟨S32x128x128x64, .i32⟩ : BufTy).Contents (Elt F)),
    unary main_v27 main_v29 (broadcastInDim S32x128x128x64 ![0, 1, 2, 3] bcast_S1x1x1x64_S32x128x128x64_0_1_2_3 : (⟨S1x1x1x64, .i32⟩ : BufTy).Contents (Elt F) → (⟨S32x128x128x64, .i32⟩ : BufTy).Contents (Elt F)),
    unary main_v28 main_v30 (broadcastInDim S32x128x128x64x1 ![0, 1, 2, 3] bcast_S32x128x128x64_S32x128x128x64x1_0_1_2_3 : (⟨S32x128x128x64, .i32⟩ : BufTy).Contents (Elt F) → (⟨S32x128x128x64x1, .i32⟩ : BufTy).Contents (Elt F)),
    unary main_v17 main_v31 (broadcastInDim S32x128x128x64x1 ![0, 1, 2, 3] bcast_S32x128x128x64_S32x128x128x64x1_0_1_2_3 : (⟨S32x128x128x64, .i32⟩ : BufTy).Contents (Elt F) → (⟨S32x128x128x64x1, .i32⟩ : BufTy).Contents (Elt F)),
    unary main_v22 main_v32 (broadcastInDim S32x128x128x64x1 ![0, 1, 2, 3] bcast_S32x128x128x64_S32x128x128x64x1_0_1_2_3 : (⟨S32x128x128x64, .i32⟩ : BufTy).Contents (Elt F) → (⟨S32x128x128x64x1, .i32⟩ : BufTy).Contents (Elt F)),
    unary main_v29 main_v33 (broadcastInDim S32x128x128x64x1 ![0, 1, 2, 3] bcast_S32x128x128x64_S32x128x128x64x1_0_1_2_3 : (⟨S32x128x128x64, .i32⟩ : BufTy).Contents (Elt F) → (⟨S32x128x128x64x1, .i32⟩ : BufTy).Contents (Elt F)) ]

/-- The last two operations: the concatenate of the four index components and the scatter-add. -/
abbrev opsTail : List (HloOp τ sig (Elt F)) :=
  [ nary ![main_v30, main_v31, main_v32, main_v33] main_v34 (fun u => concatenate S32x128x128x64x4 4 [⟨S32x128x128x64x1, u 0⟩, ⟨S32x128x128x64x1, u 1⟩, ⟨S32x128x128x64x1, u 2⟩, ⟨S32x128x128x64x1, u 3⟩] concatenates_S32x128x128x64x1_S32x128x128x64x1_S32x128x128x64x1_S32x128x128x64x1_S32x128x128x64x4_d4),
    ternary main_v7 main_v34 main_arg0 main_v35 ((fun x i u => Host.scatterAdd scatter_S32x256x256x64_S32x128x128x64x4_S32x128x128x64_n_0123_0123_4 x i u) : (⟨S32x256x256x64, .f32⟩ : BufTy).Contents (Elt F) → (⟨S32x128x128x64x4, .i32⟩ : BufTy).Contents (Elt F) → (⟨S32x128x128x64, .f32⟩ : BufTy).Contents (Elt F) → (⟨S32x256x256x64, .f32⟩ : BufTy).Contents (Elt F)) ]

/-- @main's hundred operations, in order. -/
abbrev ops : List (HloOp τ sig (Elt F)) := opsHead ++ opsTail

set_option maxRecDepth 8192 in
set_option maxHeartbeats 4000000 in
/-- @main is that straight line: the functions' definitions unfolded at their calls and the records at their
    fields, both sides are one chain of steps once sequencing is reassociated. -/
theorem main_eq (c : Dev nD) : main (F := F) c = seq ops := by
  simp only [main, fn_floor_divide.body, fn_remainder.body, fn_floor_divide_1.body, fn_where.body, fn_where_0.body,
    ops, seq_append, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem opsHead_sub : (opsHead : List (HloOp τ sig (Elt F))).Forall fun op => op.bufs ⊆ tcRefs τ sig :=
  ⟨nullary_bufs_sub .., unary_bufs_sub .., unary_bufs_sub .., binary_bufs_sub .., unary_bufs_sub .., unary_bufs_sub ..,
    unary_bufs_sub .., binary_bufs_sub .., unary_bufs_sub .., binary_bufs_sub .., nullary_bufs_sub .., unary_bufs_sub ..,
    binary_bufs_sub .., binary_bufs_sub .., nullary_bufs_sub .., unary_bufs_sub .., binary_bufs_sub .., ternary_bufs_sub ..,
    nullary_bufs_sub .., unary_bufs_sub .., nullary_bufs_sub .., binary_bufs_sub .., nullary_bufs_sub .., ternary_bufs_sub ..,
    unary_bufs_sub .., binary_bufs_sub .., nullary_bufs_sub .., unary_bufs_sub .., binary_bufs_sub .., nullary_bufs_sub ..,
    unary_bufs_sub .., binary_bufs_sub .., nullary_bufs_sub .., binary_bufs_sub .., unary_bufs_sub .., binary_bufs_sub ..,
    binary_bufs_sub .., unary_bufs_sub .., binary_bufs_sub .., ternary_bufs_sub .., nullary_bufs_sub .., unary_bufs_sub ..,
    unary_bufs_sub .., binary_bufs_sub .., unary_bufs_sub .., unary_bufs_sub .., unary_bufs_sub .., binary_bufs_sub ..,
    unary_bufs_sub .., binary_bufs_sub .., nullary_bufs_sub .., unary_bufs_sub .., binary_bufs_sub .., binary_bufs_sub ..,
    nullary_bufs_sub .., unary_bufs_sub .., binary_bufs_sub .., ternary_bufs_sub .., nullary_bufs_sub .., unary_bufs_sub ..,
    nullary_bufs_sub .., unary_bufs_sub .., nullary_bufs_sub .., unary_bufs_sub .., nullary_bufs_sub .., unary_bufs_sub ..,
    binary_bufs_sub .., nullary_bufs_sub .., unary_bufs_sub .., binary_bufs_sub .., ternary_bufs_sub .., nullary_bufs_sub ..,
    unary_bufs_sub .., binary_bufs_sub .., nullary_bufs_sub .., unary_bufs_sub .., binary_bufs_sub .., ternary_bufs_sub ..,
    nullary_bufs_sub .., unary_bufs_sub .., binary_bufs_sub .., nullary_bufs_sub .., unary_bufs_sub .., binary_bufs_sub ..,
    ternary_bufs_sub .., nullary_bufs_sub .., unary_bufs_sub .., binary_bufs_sub .., nullary_bufs_sub .., unary_bufs_sub ..,
    binary_bufs_sub .., ternary_bufs_sub .., unary_bufs_sub .., unary_bufs_sub .., unary_bufs_sub .., unary_bufs_sub ..,
    unary_bufs_sub .., unary_bufs_sub ..⟩

theorem opsTail_sub : (opsTail : List (HloOp τ sig (Elt F))).Forall fun op => op.bufs ⊆ tcRefs τ sig :=
  ⟨nary_bufs_sub .., ternary_bufs_sub ..⟩

theorem ops_sub : (ops : List (HloOp τ sig (Elt F))).Forall fun op => op.bufs ⊆ tcRefs τ sig :=
  List.forall_iff_forall_mem.mpr fun op h => (List.mem_append.mp h).elim
    (List.forall_iff_forall_mem.mp opsHead_sub op) (List.forall_iff_forall_mem.mp opsTail_sub op)

/-- Two lines run one after the other leave what the second leaves from what the first left. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- What the last two operations leave at the result buffer, from any contents W: the scatter-add of W's pooled
    values into W's zero array at W's four components laid side by side. -/
theorem tail_v35 (W : Valuation τ sig (Elt F)) :
    after opsTail W (main_v35 : DevRef τ sig)
      = Host.scatterAdd scatter_S32x256x256x64_S32x128x128x64x4_S32x128x128x64_n_0123_0123_4 (W (main_v7 : DevRef τ sig))
          (concatenate S32x128x128x64x4 4
            [⟨S32x128x128x64x1, W (main_v30 : DevRef τ sig)⟩, ⟨S32x128x128x64x1, W (main_v31 : DevRef τ sig)⟩,
             ⟨S32x128x128x64x1, W (main_v32 : DevRef τ sig)⟩, ⟨S32x128x128x64x1, W (main_v33 : DevRef τ sig)⟩]
            concatenates_S32x128x128x64x1_S32x128x128x64x1_S32x128x128x64x1_S32x128x128x64x1_S32x128x128x64x4_d4)
          (W (main_arg0 : DevRef τ sig)) := by
  after_results
  rfl

attribute [local irreducible] Host.scatterAdd Host.divsi Host.remsi concatenate signi in
set_option maxRecDepth 8192 in
set_option maxHeartbeats 4000000 in
/-- Before the concatenate the zero array's buffer holds the zero array. -/
theorem head_v7 (V : Valuation τ sig (Elt F)) :
    after opsHead V (main_v7 : DevRef τ sig) = zeros (F := F) := by
  simp (disch := decide) only [after_cons, after_nil,
    nullary_result', unary_result', binary_result', ternary_result',
    nullary_result_ne', unary_result_ne', binary_result_ne', ternary_result_ne', nary_result_ne']
  rfl

attribute [local irreducible] Host.scatterAdd Host.divsi Host.remsi concatenate signi in
set_option maxRecDepth 8192 in
set_option maxHeartbeats 4000000 in
/-- Before the concatenate the first component's buffer holds the batch numbers as a trailing axis. -/
theorem head_v30 (V : Valuation τ sig (Elt F)) :
    after opsHead V (main_v30 : DevRef τ sig) = col1 batchOf := by
  simp (disch := decide) only [after_cons, after_nil,
    nullary_result', unary_result', binary_result', ternary_result',
    nullary_result_ne', unary_result_ne', binary_result_ne', ternary_result_ne', nary_result_ne']
  rfl

attribute [local irreducible] Host.scatterAdd Host.divsi Host.remsi concatenate signi in
set_option maxRecDepth 8192 in
set_option maxHeartbeats 4000000 in
/-- Before the concatenate the second component's buffer holds the wrapped decoded rows of the index words. -/
theorem head_v31 (V : Valuation τ sig (Elt F)) :
    after opsHead V (main_v31 : DevRef τ sig) = col1 (wrap (rowOf (V (main_arg1 : DevRef τ sig))) 256#32) := by
  simp (disch := decide) only [after_cons, after_nil,
    nullary_result', unary_result', binary_result', ternary_result',
    nullary_result_ne', unary_result_ne', binary_result_ne', ternary_result_ne', nary_result_ne']
  rfl

attribute [local irreducible] Host.scatterAdd Host.divsi Host.remsi concatenate signi in
set_option maxRecDepth 8192 in
set_option maxHeartbeats 4000000 in
/-- Before the concatenate the third component's buffer holds the wrapped decoded columns of the index words. -/
theorem head_v32 (V : Valuation τ sig (Elt F)) :
    after opsHead V (main_v32 : DevRef τ sig) = col1 (wrap (colOf (V (main_arg1 : DevRef τ sig))) 256#32) := by
  simp (disch := decide) only [after_cons, after_nil,
    nullary_result', unary_result', binary_result', ternary_result',
    nullary_result_ne', unary_result_ne', binary_result_ne', ternary_result_ne', nary_result_ne']
  rfl

attribute [local irreducible] Host.scatterAdd Host.divsi Host.remsi concatenate signi in
set_option maxRecDepth 8192 in
set_option maxHeartbeats 4000000 in
/-- Before the concatenate the fourth component's buffer holds the channel numbers as a trailing axis. -/
theorem head_v33 (V : Valuation τ sig (Elt F)) :
    after opsHead V (main_v33 : DevRef τ sig) = col1 chanOf := by
  simp (disch := decide) only [after_cons, after_nil,
    nullary_result', unary_result', binary_result', ternary_result',
    nullary_result_ne', unary_result_ne', binary_result_ne', ternary_result_ne', nary_result_ne']
  rfl

attribute [local irreducible] Host.scatterAdd Host.divsi Host.remsi concatenate signi in
set_option maxRecDepth 8192 in
set_option maxHeartbeats 4000000 in
/-- No operation before the concatenate writes the pooled values. -/
theorem head_arg0 (V : Valuation τ sig (Elt F)) :
    after opsHead V (main_arg0 : DevRef τ sig) = V (main_arg0 : DevRef τ sig) := by
  simp (disch := decide) only [after_cons, after_nil,
    nullary_result', unary_result', binary_result', ternary_result',
    nullary_result_ne', unary_result_ne', binary_result_ne', ternary_result_ne', nary_result_ne']

attribute [local irreducible] Host.scatterAdd Host.divsi Host.remsi concatenate signi in
set_option maxRecDepth 8192 in
set_option maxHeartbeats 4000000 in
/-- No operation before the concatenate writes the index words. -/
theorem head_arg1 (V : Valuation τ sig (Elt F)) :
    after opsHead V (main_arg1 : DevRef τ sig) = V (main_arg1 : DevRef τ sig) := by
  simp (disch := decide) only [after_cons, after_nil,
    nullary_result', unary_result', binary_result', ternary_result',
    nullary_result_ne', unary_result_ne', binary_result_ne', ternary_result_ne', nary_result_ne']

/-- The whole line leaves the reference's result at the result buffer: the head's six reads put into the tail's. -/
theorem out_eq (V : Valuation τ sig (Elt F)) :
    after ops V (main_v35 : DevRef τ sig) = refOut (V (main_arg0 : DevRef τ sig)) (V (main_arg1 : DevRef τ sig)) := by
  rw [after_append, tail_v35, head_v7, head_v30, head_v31, head_v32, head_v33, head_arg0]
  rfl

/-- Neither of the last two operations writes an argument. -/
theorem tail_arg0 (W : Valuation τ sig (Elt F)) : after opsTail W (main_arg0 : DevRef τ sig) = W (main_arg0 : DevRef τ sig) := by
  after_results

theorem tail_arg1 (W : Valuation τ sig (Elt F)) : after opsTail W (main_arg1 : DevRef τ sig) = W (main_arg1 : DevRef τ sig) := by
  after_results

/-- The whole line leaves the arguments as they were. -/
theorem arg0_eq (V : Valuation τ sig (Elt F)) : after ops V (main_arg0 : DevRef τ sig) = V (main_arg0 : DevRef τ sig) := by
  rw [after_append]
  exact (tail_arg0 _).trans (head_arg0 V)

theorem arg1_eq (V : Valuation τ sig (Elt F)) : after ops V (main_arg1 : DevRef τ sig) = V (main_arg1 : DevRef τ sig) := by
  rw [after_append]
  exact (tail_arg1 _).trans (head_arg1 V)

end Line

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v35)
          = refOut (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v35).trans (Line.out_eq _),
      (h c main_arg0).trans (Line.arg0_eq _),
      (h c main_arg1).trans (Line.arg1_eq _)⟩)
    (run_seq Line.scopedRefs_eq Line.scopedSems_eq defs main (fun _ => Line.ops) Line.main_eq (fun _ => Line.ops_sub) m ρ)

end Cert.ReferenceIdeal.Ref

end
-- ==== Proof.RefIvec.lean ====
/-
  The scatter's index vectors read at a position, for words that point into their own windows: such a word is
  non-negative and below 2²², so jnp's floor division and remainder are the natural-number quotient and
  remainder, no component is negative, and nothing wraps.
-/
import proofs.«401000_j49581102465347_3_alg».proof.Proof.RefTerm
import proofs.«401000_j49581102465347_3_alg».proof.Proof.Gen.ReferenceIdeal
import proofs.«401000_j49581102465347_3_alg».proof.Proof.Spec
import Idealize.ShloMosaic.Lib.ValueIdx
import Idealize.ShloMosaic.Lib.Pipeline.Value
import Idealize.ShloMosaic.Lib.StableHlo.Predicate

noncomputable section

namespace Cert.ReferenceIdeal.Ref

open Idealize.ShloMosaic Idealize.ShloMosaic.ValueIdx Cert.ReferenceIdeal Cert.Unpool

namespace Ivec

open Cert.ReferenceIdeal.Facts₀ Cert.ReferenceIdeal.Facts

/-! ## One word -/

/-- A word below 2³¹ has its top bit clear: it is non-negative as a signed word. -/
theorem msb_false_of_lt (v : BitVec 32) (hv : v.toNat < 2147483648) : v.msb = false := by
  rw [BitVec.msb_eq_false_iff_two_mul_lt]; omega

/-- A positive divisor below 2³¹ is neither zero nor minus one, so signed division by it has no corner. -/
theorem not_corner (v K : BitVec 32) (hK : K.toNat < 2147483648) (hK0 : 0 < K.toNat) : ¬ IntOp.SDivCorner v K := by
  rintro (h | ⟨_, h⟩)
  · rw [h] at hK0; simp at hK0
  · rw [h] at hK; simp at hK

/-- The truncating signed quotient of two non-negative words is the quotient of their values. -/
theorem divsi_nonneg (v K : BitVec 32) (hv : v.toNat < 2147483648) (hK : K.toNat < 2147483648) (hK0 : 0 < K.toNat) :
    IntOp.divsi .host v K = BitVec.ofNat 32 (v.toNat / K.toNat) := by
  unfold IntOp.divsi
  rw [if_neg (not_corner v K hK hK0), BitVec.sdiv_eq]
  simp only [msb_false_of_lt v hv, msb_false_of_lt K hK]
  apply BitVec.eq_of_toNat_eq
  show (v / K).toNat = _
  rw [BitVec.toNat_udiv, BitVec.toNat_ofNat, Nat.mod_eq_of_lt]
  exact lt_of_le_of_lt (Nat.div_le_self _ _) (by omega)

/-- The truncating signed remainder of two non-negative words is the remainder of their values. -/
theorem remsi_nonneg (v K : BitVec 32) (hv : v.toNat < 2147483648) (hK : K.toNat < 2147483648) (hK0 : 0 < K.toNat) :
    IntOp.remsi .host v K = BitVec.ofNat 32 (v.toNat % K.toNat) := by
  unfold IntOp.remsi
  rw [if_neg (not_corner v K hK hK0), BitVec.srem_eq]
  simp only [msb_false_of_lt v hv, msb_false_of_lt K hK]
  apply BitVec.eq_of_toNat_eq
  show (v % K).toNat = _
  rw [BitVec.toNat_umod, BitVec.toNat_ofNat]
  exact (Nat.mod_eq_of_lt (lt_of_le_of_lt (Nat.mod_le _ _) (by omega))).symm

/-- A non-negative word is not below zero in the signed order. -/
theorem slt_zero_false (v : BitVec 32) (hv : v.toNat < 2147483648) : v.slt 0#32 = false := by
  have h := BitVec.toInt_eq_toNat_of_lt (x := v) (by omega)
  rw [BitVec.slt_eq_decide, decide_eq_false_iff_not, h, show (0#32 : BitVec 32).toInt = 0 from rfl]
  omega

/-- The sign word of a positive word is one. -/
theorem sign_pos (v : BitVec 32) (hv : v.toNat < 2147483648) (h0 : v ≠ 0) :
    (if v = 0 then (0 : BitVec 32) else if v.msb then -1 else 1) = 1 := by
  rw [if_neg h0, msb_false_of_lt v hv]; rfl

/-- Floor division of a non-negative word by a positive one is the plain quotient: the correction needs signs that
    differ and a remainder that is not zero, but a zero dividend leaves no remainder and a positive one has the
    divisor's sign. -/
theorem fdivWord (v K : BitVec 32) (hv : v.toNat < 2147483648) (hK : K.toNat < 2147483648) (hK0 : 0 < K.toNat) :
    Scalar.select
      (IntOp.andi
        (IntOp.cmpi .ne (if v = 0 then (0 : BitVec 32) else if v.msb then -1 else 1)
          (if K = 0 then (0 : BitVec 32) else if K.msb then -1 else 1))
        (IntOp.cmpi .ne (IntOp.remsi .host v K) 0#32))
      (IntOp.subi (IntOp.divsi .host v K) 1#32) (IntOp.divsi .host v K)
      = BitVec.ofNat 32 (v.toNat / K.toNat) := by
  have hKne : K ≠ 0 := by rintro rfl; simp at hK0
  rw [sign_pos K hK hKne, divsi_nonneg v K hv hK hK0]
  by_cases h0 : v = 0
  · have hrem : IntOp.remsi .host v K = 0#32 := by rw [remsi_nonneg v K hv hK hK0, h0]; simp
    rw [hrem]
    simp [IntOp.cmpi, IntOp.andi, Scalar.select]
  · rw [sign_pos v hv h0]
    simp [IntOp.cmpi, IntOp.andi, Scalar.select]

/-- The floor remainder of a non-negative word by a positive one is the plain remainder: the divisor is not zero, so
    it is used as it stands, and neither the remainder nor the divisor is negative, so nothing is added. -/
theorem remWord (v K : BitVec 32) (hv : v.toNat < 2147483648) (hK : K.toNat < 2147483648) (hK0 : 0 < K.toNat) :
    Scalar.select
      (IntOp.andi
        (IntOp.cmpi .ne
          (IntOp.cmpi .slt (IntOp.remsi .host v (Scalar.select (IntOp.cmpi .eq K 0#32) 1#32 K)) 0#32)
          (IntOp.cmpi .slt (Scalar.select (IntOp.cmpi .eq K 0#32) 1#32 K) 0#32))
        (IntOp.cmpi .ne (IntOp.remsi .host v (Scalar.select (IntOp.cmpi .eq K 0#32) 1#32 K)) 0#32))
      (IntOp.addi (IntOp.remsi .host v (Scalar.select (IntOp.cmpi .eq K 0#32) 1#32 K)) (Scalar.select (IntOp.cmpi .eq K 0#32) 1#32 K))
      (IntOp.remsi .host v (Scalar.select (IntOp.cmpi .eq K 0#32) 1#32 K))
      = BitVec.ofNat 32 (v.toNat % K.toNat) := by
  have hKne : K ≠ 0 := by rintro rfl; simp at hK0
  have hD : Scalar.select (IntOp.cmpi .eq K 0#32) 1#32 K = K := by
    unfold Scalar.select
    rw [if_neg]
    exact fun h => hKne (StableHlo.Predicate.cmpi_eq_iff.mp h)
  rw [hD, remsi_nonneg v K hv hK hK0]
  have hr : (BitVec.ofNat 32 (v.toNat % K.toNat)).toNat < 2147483648 := by
    rw [BitVec.toNat_ofNat, Nat.mod_eq_of_lt (lt_of_le_of_lt (Nat.mod_le _ _) (by omega))]
    exact lt_of_le_of_lt (Nat.mod_le _ _) (by omega)
  have h1 : (BitVec.ofNat 32 (v.toNat % K.toNat)).slt 0#32 = false := slt_zero_false _ hr
  have h2 : K.slt 0#32 = false := slt_zero_false K hK
  simp [IntOp.cmpi, IntOp.andi, Scalar.select, h1, h2]

/-- A non-negative word is not wrapped. -/
theorem wrapWord (v n : BitVec 32) (hv : v.toNat < 2147483648) :
    Scalar.select (IntOp.cmpi .slt v 0#32) (IntOp.addi v n) v = v := by
  have h1 : v.slt 0#32 = false := slt_zero_false v hv
  simp [IntOp.cmpi, Scalar.select, h1]

/-! ## The vector functions read at a position -/

theorem fdiv_apply (a : IVec S32x128x128x64 32) (K : BitVec 32) (j : S32x128x128x64.Idx)
    (ha : (a j).toNat < 2147483648) (hK : K.toNat < 2147483648) (hK0 : 0 < K.toNat) :
    fdiv a (constantI S_ 32 K) j = BitVec.ofNat 32 ((a j).toNat / K.toNat) :=
  fdivWord (a j) K ha hK hK0

theorem rem_apply (a : IVec S32x128x128x64 32) (K : BitVec 32) (j : S32x128x128x64.Idx)
    (ha : (a j).toNat < 2147483648) (hK : K.toNat < 2147483648) (hK0 : 0 < K.toNat) :
    rem a (constantI S_ 32 K) j = BitVec.ofNat 32 ((a j).toNat % K.toNat) :=
  remWord (a j) K ha hK hK0

theorem wrap_apply (a : IVec S32x128x128x64 32) (n : BitVec 32) (j : S32x128x128x64.Idx)
    (ha : (a j).toNat < 2147483648) : wrap a n j = a j :=
  wrapWord (a j) n ha

/-- The batch component at a position is the position's batch number: it is below 2⁵, so it does not wrap. -/
theorem batchOf_apply (b : Fin 32) (h w : Fin 128) (c : Fin 64) :
    batchOf (ix4 b h w c) = BitVec.ofNat 32 b.val := by
  have e : batchOf (ix4 b h w c) = Scalar.select (IntOp.cmpi .slt (BitVec.ofNat 32 b.val) 0#32)
      (IntOp.addi (BitVec.ofNat 32 b.val) 32#32) (BitVec.ofNat 32 b.val) := rfl
  rw [e]
  exact wrapWord _ _ (by rw [BitVec.toNat_ofNat]; have := b.isLt; omega)

/-- The channel component at a position is the position's channel number: it is below 2⁶, so it does not wrap. -/
theorem chanOf_apply (b : Fin 32) (h w : Fin 128) (c : Fin 64) :
    chanOf (ix4 b h w c) = BitVec.ofNat 32 c.val := by
  have e : chanOf (ix4 b h w c) = Scalar.select (IntOp.cmpi .slt (BitVec.ofNat 32 c.val) 0#32)
      (IntOp.addi (BitVec.ofNat 32 c.val) 64#32) (BitVec.ofNat 32 c.val) := rfl
  rw [e]
  exact wrapWord _ _ (by rw [BitVec.toNat_ofNat]; have := c.isLt; omega)

/-- A component with a trailing axis of length one, read at a position, is the component there. -/
theorem col1_apply (a : IVec S32x128x128x64 32) (b : Fin 32) (h w : Fin 128) (c : Fin 64) (z : Fin 1) :
    col1 a (ix5 b h w c z) = a (ix4 b h w c) := by
  show a _ = a _
  congr 1
  funext e
  match e with
  | ⟨0, _⟩ => rfl
  | ⟨1, _⟩ => rfl
  | ⟨2, _⟩ => rfl
  | ⟨3, _⟩ => rfl

/-! ## The four components laid side by side -/

/-- Each component of four one-wide columns laid along the last axis is that column at the position. -/
theorem cat4_apply (x0 x1 x2 x3 : IVec S32x128x128x64 32) (b : Fin 32) (h w : Fin 128) (c : Fin 64) :
    let cat := concatenate S32x128x128x64x4 4
      [⟨S32x128x128x64x1, col1 x0⟩, ⟨S32x128x128x64x1, col1 x1⟩, ⟨S32x128x128x64x1, col1 x2⟩, ⟨S32x128x128x64x1, col1 x3⟩]
      concatenates_S32x128x128x64x1_S32x128x128x64x1_S32x128x128x64x1_S32x128x128x64x1_S32x128x128x64x4_d4
    cat (ix5 b h w c (0 : Fin 4)) = x0 (ix4 b h w c) ∧ cat (ix5 b h w c (1 : Fin 4)) = x1 (ix4 b h w c)
    ∧ cat (ix5 b h w c (2 : Fin 4)) = x2 (ix4 b h w c) ∧ cat (ix5 b h w c (3 : Fin 4)) = x3 (ix4 b h w c) := by
  intro cat
  have off : ∀ (k : Fin 4) (e : Fin S32x128x128x64x1.rank), e.cast (rfl : S32x128x128x64x1.rank = S32x128x128x64x4.rank) ≠ 4 →
      ((ix5 b h w c (0 : Fin 1) : S32x128x128x64x1.Idx) e).val
        = ((ix5 b h w c k : S32x128x128x64x4.Idx) (e.cast (rfl : S32x128x128x64x1.rank = S32x128x128x64x4.rank))).val := by
    intro k e he
    match e, he with
    | ⟨0, _⟩, _ => rfl
    | ⟨1, _⟩, _ => rfl
    | ⟨2, _⟩, _ => rfl
    | ⟨3, _⟩, _ => rfl
    | ⟨4, _⟩, he => exact absurd rfl he
  refine ⟨?_, ?_, ?_, ?_⟩
  · exact (concatenate_apply_piece (t := S32x128x128x64x4) 4 _ _ (ix5 b h w c (0 : Fin 4)) 0 (by simp)
      S32x128x128x64x1 (col1 x0) rfl rfl 0 rfl (ix5 b h w c (0 : Fin 1)) (off 0) rfl).trans (col1_apply x0 b h w c 0)
  · exact (concatenate_apply_piece (t := S32x128x128x64x4) 4 _ _ (ix5 b h w c (1 : Fin 4)) 1 (by simp)
      S32x128x128x64x1 (col1 x1) rfl rfl 1 rfl (ix5 b h w c (0 : Fin 1)) (off 1) rfl).trans (col1_apply x1 b h w c 0)
  · exact (concatenate_apply_piece (t := S32x128x128x64x4) 4 _ _ (ix5 b h w c (2 : Fin 4)) 2 (by simp)
      S32x128x128x64x1 (col1 x2) rfl rfl 2 rfl (ix5 b h w c (0 : Fin 1)) (off 2) rfl).trans (col1_apply x2 b h w c 0)
  · exact (concatenate_apply_piece (t := S32x128x128x64x4) 4 _ _ (ix5 b h w c (3 : Fin 4)) 3 (by simp)
      S32x128x128x64x1 (col1 x3) rfl rfl 3 rfl (ix5 b h w c (0 : Fin 1)) (off 3) rfl).trans (col1_apply x3 b h w c 0)

end Ivec

theorem ivec_apply (idx : IVec S32x128x128x64 32) (hO : Own idx) (b : Fin 32) (h w : Fin 128) (c : Fin 64) :
    ivec idx (ix5 b h w c (0 : Fin 4)) = BitVec.ofNat 32 b.val
    ∧ ivec idx (ix5 b h w c (1 : Fin 4)) = BitVec.ofNat 32 ((idx (ix4 b h w c)).toNat / 16384)
    ∧ ivec idx (ix5 b h w c (2 : Fin 4)) = BitVec.ofNat 32 ((idx (ix4 b h w c)).toNat / 64 % 256)
    ∧ ivec idx (ix5 b h w c (3 : Fin 4)) = BitVec.ofNat 32 c.val := by
  -- the word is below 2²²: its quotient by 2¹⁵ is the row number, below 2⁷
  have hv : (idx (ix4 b h w c)).toNat < 4194304 := by
    have h1 := (hO b h w c).1
    have h2 := h.isLt
    omega
  -- the decoded row
  have hrow : rowOf idx (ix4 b h w c) = BitVec.ofNat 32 ((idx (ix4 b h w c)).toNat / 16384) :=
    Ivec.fdiv_apply idx 16384#32 (ix4 b h w c) (by omega) (by decide) (by decide)
  -- the remainder by 2¹⁴, then the decoded column
  have hrem : rem idx (constantI S_ 32 16384#32) (ix4 b h w c) = BitVec.ofNat 32 ((idx (ix4 b h w c)).toNat % 16384) :=
    Ivec.rem_apply idx 16384#32 (ix4 b h w c) (by omega) (by decide) (by decide)
  have hremN : (rem idx (constantI S_ 32 16384#32) (ix4 b h w c)).toNat = (idx (ix4 b h w c)).toNat % 16384 := by
    rw [hrem, BitVec.toNat_ofNat]; omega
  have hcol : colOf idx (ix4 b h w c) = BitVec.ofNat 32 ((idx (ix4 b h w c)).toNat / 64 % 256) := by
    have e := Ivec.fdiv_apply (rem idx (constantI S_ 32 16384#32)) 64#32 (ix4 b h w c) (by rw [hremN]; omega) (by decide) (by decide)
    rw [hremN] at e
    have hq : (idx (ix4 b h w c)).toNat % 16384 / (64#32 : BitVec 32).toNat = (idx (ix4 b h w c)).toNat / 64 % 256 := by
      show (idx (ix4 b h w c)).toNat % 16384 / 64 = _
      omega
    rw [hq] at e
    exact e
  -- neither decoded component is negative, so neither wraps
  have hwrow : wrap (rowOf idx) 256#32 (ix4 b h w c) = BitVec.ofNat 32 ((idx (ix4 b h w c)).toNat / 16384) := by
    rw [Ivec.wrap_apply _ _ _ (by rw [hrow, BitVec.toNat_ofNat]; omega), hrow]
  have hwcol : wrap (colOf idx) 256#32 (ix4 b h w c) = BitVec.ofNat 32 ((idx (ix4 b h w c)).toNat / 64 % 256) := by
    rw [Ivec.wrap_apply _ _ _ (by rw [hcol, BitVec.toNat_ofNat]; omega), hcol]
  have hc := Ivec.cat4_apply batchOf (wrap (rowOf idx) 256#32) (wrap (colOf idx) 256#32) chanOf b h w c
  exact ⟨hc.1.trans (Ivec.batchOf_apply b h w c), hc.2.1.trans hwrow, hc.2.2.1.trans hwcol, hc.2.2.2.trans (Ivec.chanOf_apply b h w c)⟩

end Cert.ReferenceIdeal.Ref

end
-- ==== Proof.RefScatter.lean ====
/-
  A scatter-add of the pooled values into zeros, at index vectors (batch, decoded row, decoded column, channel)
  of words that point into their own windows, is the unpooled array: the pooled position (b, h, w, c) lands on
  the cell (b, y, xc, c) with y / 2 = h and xc / 2 = w, so the positions landing on a cell (b, Y, X, c) are at most
  the one position (b, Y/2, X/2, c), and it lands there exactly when its word decodes to (Y, X).
-/
import proofs.«401000_j49581102465347_3_alg».proof.Proof.RefTerm
import proofs.«401000_j49581102465347_3_alg».proof.Proof.Gen.ReferenceIdeal
import proofs.«401000_j49581102465347_3_alg».proof.Proof.Spec
import Idealize.ShloMosaic.Lib.ValueIdx
import Idealize.ShloMosaic.Lib.StableHlo.Predicate
import Idealize.ShloMosaic.PureOps.Ideal.Laws

noncomputable section

namespace Cert.ReferenceIdeal.Ref

open Idealize.ShloMosaic Idealize.ShloMosaic.ValueIdx Cert.ReferenceIdeal Cert.Unpool

/-- The scatter's dimension numbers: every operand axis is an inserted window axis, and component k of an index
    vector is the start on operand axis k. -/
private abbrev D := scatter_S32x256x256x64_S32x128x128x64x4_S32x128x128x64_n_0123_0123_4

/-- Component k of the start index of the pooled position (b, h, w, c) is read at (b, h, w, c, k). -/
private theorem siIdx_eq (b : Fin 32) (h w : Fin 128) (c : Fin 64) (k : Fin 4) :
    D.siIdx (ix4 b h w c) k = ix5 b h w c k := by
  funext a
  match a with
  | ⟨0, _⟩ => rfl
  | ⟨1, _⟩ => rfl
  | ⟨2, _⟩ => rfl
  | ⟨3, _⟩ => rfl
  | ⟨4, _⟩ => rfl

/-- No operand axis is kept, so the window coordinate is zero on every axis. -/
private theorem window_eq (j : S32x128x128x64.Idx) (a : Fin 4) : D.window j a = 0 := by
  unfold ScatterDims.window
  rw [dif_neg]
  revert a; decide

/-- The start on operand axis a is component a of the index vector, read signed. -/
private theorem start_eq (iv : IVec S32x128x128x64x4 32) (b : Fin 32) (h w : Fin 128) (c : Fin 64) (a : Fin 4) :
    D.start (ix4 b h w c) iv a = (iv (ix5 b h w c a)).toInt := by
  have hm : ∀ a : Fin 4, a ∈ D.scatterDimsToOperandDims := by decide
  unfold ScatterDims.start
  rw [dif_pos (hm a)]
  match a with
  | ⟨0, _⟩ => exact congrArg (fun q => (iv q).toInt) (siIdx_eq b h w c 0)
  | ⟨1, _⟩ => exact congrArg (fun q => (iv q).toInt) (siIdx_eq b h w c 1)
  | ⟨2, _⟩ => exact congrArg (fun q => (iv q).toInt) (siIdx_eq b h w c 2)
  | ⟨3, _⟩ => exact congrArg (fun q => (iv q).toInt) (siIdx_eq b h w c 3)

/-- The array the scatter adds into is zero at every cell. -/
private theorem zeros_apply (i : S32x256x256x64.Idx) : (zeros (F := Ideal)) i = 0 := by
  simp [zeros, broadcastInDim, constant]

/-- Two rank-4 indices are equal only if their coordinates are. -/
private theorem ix4_inj {n0 n1 n2 n3 : Nat} {a a' : Fin n0} {b b' : Fin n1} {c c' : Fin n2} {d d' : Fin n3}
    (h : (ix4 a b c d : (⟨4, ![n0, n1, n2, n3]⟩ : Shape).Idx) = ix4 a' b' c' d') : a = a' ∧ b = b' ∧ c = c' ∧ d = d' :=
  ⟨congrFun h 0, congrFun h 1, congrFun h 2, congrFun h 3⟩

/-- Where the four components of a position's index vector are naturals below the operand's extents (so each
    reads the same signed and unsigned, and start plus window is in range on every axis), the position lands on
    the cell they name. -/
private theorem resultIdx_eq (iv : IVec S32x128x128x64x4 32) (b : Fin 32) (h w : Fin 128) (c : Fin 64)
    (s0 : Fin 32) (s1 s2 : Fin 256) (s3 : Fin 64)
    (h0 : iv (ix5 b h w c (0 : Fin 4)) = BitVec.ofNat 32 s0.val)
    (h1 : iv (ix5 b h w c (1 : Fin 4)) = BitVec.ofNat 32 s1.val)
    (h2 : iv (ix5 b h w c (2 : Fin 4)) = BitVec.ofNat 32 s2.val)
    (h3 : iv (ix5 b h w c (3 : Fin 4)) = BitVec.ofNat 32 s3.val) :
    D.resultIdx? (ix4 b h w c) iv = some (ix4 s0 s1 s2 s3) := by
  have e0 : D.start (ix4 b h w c) iv (0 : Fin 4) = (s0.val : Int) := by
    rw [start_eq, h0]; exact StableHlo.Predicate.toInt_ofNat_small _ (by omega)
  have e1 : D.start (ix4 b h w c) iv (1 : Fin 4) = (s1.val : Int) := by
    rw [start_eq, h1]; exact StableHlo.Predicate.toInt_ofNat_small _ (by omega)
  have e2 : D.start (ix4 b h w c) iv (2 : Fin 4) = (s2.val : Int) := by
    rw [start_eq, h2]; exact StableHlo.Predicate.toInt_ofNat_small _ (by omega)
  have e3 : D.start (ix4 b h w c) iv (3 : Fin 4) = (s3.val : Int) := by
    rw [start_eq, h3]; exact StableHlo.Predicate.toInt_ofNat_small _ (by omega)
  unfold ScatterDims.resultIdx?
  rw [dif_pos]
  · congr 1
    funext a
    match a with
    | ⟨0, _⟩ =>
      apply Fin.ext
      show (D.start (ix4 b h w c) iv (0 : Fin 4) + (D.window (ix4 b h w c) (0 : Fin 4) : Int)).toNat = s0.val
      rw [e0, window_eq]; simp
    | ⟨1, _⟩ =>
      apply Fin.ext
      show (D.start (ix4 b h w c) iv (1 : Fin 4) + (D.window (ix4 b h w c) (1 : Fin 4) : Int)).toNat = s1.val
      rw [e1, window_eq]; simp
    | ⟨2, _⟩ =>
      apply Fin.ext
      show (D.start (ix4 b h w c) iv (2 : Fin 4) + (D.window (ix4 b h w c) (2 : Fin 4) : Int)).toNat = s2.val
      rw [e2, window_eq]; simp
    | ⟨3, _⟩ =>
      apply Fin.ext
      show (D.start (ix4 b h w c) iv (3 : Fin 4) + (D.window (ix4 b h w c) (3 : Fin 4) : Int)).toNat = s3.val
      rw [e3, window_eq]; simp
  · intro a
    match a with
    | ⟨0, _⟩ =>
      show 0 ≤ D.start (ix4 b h w c) iv (0 : Fin 4) + (D.window (ix4 b h w c) (0 : Fin 4) : Int)
        ∧ D.start (ix4 b h w c) iv (0 : Fin 4) + (D.window (ix4 b h w c) (0 : Fin 4) : Int) < (32 : Nat)
      rw [e0, window_eq]; omega
    | ⟨1, _⟩ =>
      show 0 ≤ D.start (ix4 b h w c) iv (1 : Fin 4) + (D.window (ix4 b h w c) (1 : Fin 4) : Int)
        ∧ D.start (ix4 b h w c) iv (1 : Fin 4) + (D.window (ix4 b h w c) (1 : Fin 4) : Int) < (256 : Nat)
      rw [e1, window_eq]; omega
    | ⟨2, _⟩ =>
      show 0 ≤ D.start (ix4 b h w c) iv (2 : Fin 4) + (D.window (ix4 b h w c) (2 : Fin 4) : Int)
        ∧ D.start (ix4 b h w c) iv (2 : Fin 4) + (D.window (ix4 b h w c) (2 : Fin 4) : Int) < (256 : Nat)
      rw [e2, window_eq]; omega
    | ⟨3, _⟩ =>
      show 0 ≤ D.start (ix4 b h w c) iv (3 : Fin 4) + (D.window (ix4 b h w c) (3 : Fin 4) : Int)
        ∧ D.start (ix4 b h w c) iv (3 : Fin 4) + (D.window (ix4 b h w c) (3 : Fin 4) : Int) < (64 : Nat)
      rw [e3, window_eq]; omega

/-- A pooled position whose row and column are the halves of Y and X is the source position of the cell
    (b, Y, X, c). -/
private theorem src_eq (b : Fin 32) (Y X : Fin 256) (c : Fin 64) (h w : Fin 128)
    (hh : h.val = Y.val / 2) (hw : w.val = X.val / 2) : ix4 b h w c = src b Y X c := by
  funext a
  match a with
  | ⟨0, _⟩ => rfl
  | ⟨1, _⟩ => apply Fin.ext; exact hh
  | ⟨2, _⟩ => apply Fin.ext; exact hw
  | ⟨3, _⟩ => rfl

/-- Under `Own`, the pooled position j lands on the cell (b, Y, X, c) exactly when it is the cell's source position
    and that position's word decodes to (Y, X).  With n the word at j = (b', h, w, c'): n / 2¹⁵ = h < 2⁷ gives
    n < 2²², so the decoded row n / 2¹⁴ and column n / 2⁶ mod 2⁸ are below 2⁸ and j lands on
    (b', n / 2¹⁴, n / 2⁶ mod 2⁸, c'); if that is (b, Y, X, c) then h = n / 2¹⁵ = Y / 2 and
    w = n / 2⁷ mod 2⁷ = X / 2. -/
private theorem lands_iff (idx : IVec S32x128x128x64 32) (hO : Own idx) (iv : IVec S32x128x128x64x4 32)
    (hiv : ∀ (b : Fin 32) (h w : Fin 128) (c : Fin 64),
      iv (ix5 b h w c (0 : Fin 4)) = BitVec.ofNat 32 b.val
      ∧ iv (ix5 b h w c (1 : Fin 4)) = BitVec.ofNat 32 ((idx (ix4 b h w c)).toNat / 16384)
      ∧ iv (ix5 b h w c (2 : Fin 4)) = BitVec.ofNat 32 ((idx (ix4 b h w c)).toNat / 64 % 256)
      ∧ iv (ix5 b h w c (3 : Fin 4)) = BitVec.ofNat 32 c.val)
    (b : Fin 32) (Y X : Fin 256) (c : Fin 64) (j : S32x128x128x64.Idx) :
    D.resultIdx? j iv = some (ix4 b Y X c) ↔
      j = src b Y X c ∧ (idx (src b Y X c)).toNat / 16384 = Y.val ∧ (idx (src b Y X c)).toNat / 64 % 256 = X.val := by
  obtain ⟨b', h, w, c', rfl⟩ : ∃ b' h w c', j = ix4 b' h w c' := ⟨_, _, _, _, eq_ix4 j⟩
  obtain ⟨hh, hw⟩ := hO b' h w c'
  obtain ⟨h0, h1, h2, h3⟩ := hiv b' h w c'
  have hh' := h.isLt
  have hw' := w.isLt
  have hY' := Y.isLt
  have hX' := X.isLt
  obtain ⟨n, hn⟩ : ∃ n, (idx (ix4 b' h w c')).toNat = n := ⟨_, rfl⟩
  rw [hn] at hh hw h1 h2
  have hr : D.resultIdx? (ix4 b' h w c') iv
      = some (ix4 b' (⟨n / 16384, by omega⟩ : Fin 256) (⟨n / 64 % 256, by omega⟩ : Fin 256) c') :=
    resultIdx_eq iv b' h w c' b' ⟨n / 16384, by omega⟩ ⟨n / 64 % 256, by omega⟩ c' h0 h1 h2 h3
  rw [hr, Option.some.injEq]
  constructor
  · intro e
    obtain ⟨eb, eY, eX, ec⟩ := ix4_inj e
    subst eb; subst ec
    have eY' : n / 16384 = Y.val := congrArg Fin.val eY
    have eX' : n / 64 % 256 = X.val := congrArg Fin.val eX
    have hs : ix4 b' h w c' = src b' Y X c' := src_eq b' Y X c' h w (by omega) (by omega)
    refine ⟨hs, ?_, ?_⟩
    · rw [← hs, hn]; exact eY'
    · rw [← hs, hn]; exact eX'
  · rintro ⟨hs, dY, dX⟩
    rw [← hs, hn] at dY dX
    obtain ⟨eb, _, _, ec⟩ := ix4_inj hs
    subst eb; subst ec
    have eY : (⟨n / 16384, by omega⟩ : Fin 256) = Y := Fin.ext dY
    have eX : (⟨n / 64 % 256, by omega⟩ : Fin 256) = X := Fin.ext dX
    rw [eY, eX]

/-- At a cell (b, Y, X, c) the scatter-add is zero plus the sum of the pooled values at the positions landing
    there: the one value at the source position when its word decodes to (Y, X), and an empty sum otherwise. -/
theorem scatter_unpool (x : FVec Ideal S32x128x128x64 .f32) (idx : IVec S32x128x128x64 32) (hO : Own idx)
    (iv : IVec S32x128x128x64x4 32)
    (hiv : ∀ (b : Fin 32) (h w : Fin 128) (c : Fin 64),
      iv (ix5 b h w c (0 : Fin 4)) = BitVec.ofNat 32 b.val
      ∧ iv (ix5 b h w c (1 : Fin 4)) = BitVec.ofNat 32 ((idx (ix4 b h w c)).toNat / 16384)
      ∧ iv (ix5 b h w c (2 : Fin 4)) = BitVec.ofNat 32 ((idx (ix4 b h w c)).toNat / 64 % 256)
      ∧ iv (ix5 b h w c (3 : Fin 4)) = BitVec.ofNat 32 c.val) :
    Host.scatterAdd (F := Ideal) scatter_S32x256x256x64_S32x128x128x64x4_S32x128x128x64_n_0123_0123_4
        (zeros (F := Ideal)) iv x = unpool x idx := by
  funext i
  obtain ⟨b, Y, X, c, rfl⟩ : ∃ b Y X c, i = ix4 b Y X c := ⟨_, _, _, _, eq_ix4 i⟩
  simp only [Host.scatterAdd, Ideal.hostScatterAdd_def, Ideal.hostScatterAdd]
  rw [zeros_apply, zero_add]
  show _ = unpoolAt x idx b Y X c
  unfold unpoolAt
  by_cases hd : (idx (src b Y X c)).toNat / 16384 = Y.val ∧ (idx (src b Y X c)).toNat / 64 % 256 = X.val
  · rw [if_pos hd]
    apply Finset.sum_eq_single_of_mem
    · rw [Finset.mem_filter]
      exact ⟨Finset.mem_univ _, (lands_iff idx hO iv hiv b Y X c _).2 ⟨rfl, hd⟩⟩
    · intro j hj hne
      rw [Finset.mem_filter] at hj
      exact absurd ((lands_iff idx hO iv hiv b Y X c j).1 hj.2).1 hne
  · rw [if_neg hd]
    apply Finset.sum_eq_zero
    intro j hj
    rw [Finset.mem_filter] at hj
    exact absurd ((lands_iff idx hO iv hiv b Y X c j).1 hj.2).2 hd

end Cert.ReferenceIdeal.Ref

end
-- ==== Proof.lean ====
/-
  Max-unpooling, 2×2 windows, f32[32, 128, 128, 64] → f32[32, 256, 256, 64]: the kernel places every pooled value
  inside its own 2×2 output window, at the row and column parity its index word carries (bits 14 and 6), and the
  reference scatter-adds every pooled value at the row and column its index word decodes to (the quotient by 2¹⁴
  and the quotient by 2⁶ modulo 2⁸).  Under the precondition that every word points into its own window — the
  decoded row y has y / 2 = h and the decoded column xc has xc / 2 = w — the two agree: at most one pooled value
  lands on each output cell, the one of the cell's own window, and it lands there exactly when its word's parities
  are the cell's.  Both sides are shown equal to the one array `Cert.Unpool.unpool`.

  The frames of the two kernel programs are the generated ones; the reference's frame is its run with the result
  dropped.  No rewrite was applied when the kernel was idealized, so the preservation claim is trivial.  No
  arithmetic on the pooled values happens beyond adding a single value to zero, so finiteness is never used.
-/
import proofs.«401000_j49581102465347_3_alg».proof.Defs
import proofs.«401000_j49581102465347_3_alg».proof.Proof.Gen.Kernel
import proofs.«401000_j49581102465347_3_alg».proof.Proof.Gen.Kernel.Skeleton
import proofs.«401000_j49581102465347_3_alg».proof.Proof.Gen.Kernel.Launch
import proofs.«401000_j49581102465347_3_alg».proof.Proof.Gen.Kernel.Points
import proofs.«401000_j49581102465347_3_alg».proof.Proof.Gen.Kernel.Frame
import proofs.«401000_j49581102465347_3_alg».proof.Proof.Gen.KernelIdeal
import proofs.«401000_j49581102465347_3_alg».proof.Proof.Gen.KernelIdeal.Skeleton
import proofs.«401000_j49581102465347_3_alg».proof.Proof.Gen.KernelIdeal.Launch
import proofs.«401000_j49581102465347_3_alg».proof.Proof.Gen.KernelIdeal.Points
import proofs.«401000_j49581102465347_3_alg».proof.Proof.Gen.KernelIdeal.Frame
import proofs.«401000_j49581102465347_3_alg».proof.Proof.Gen.ReferenceIdeal
import proofs.«401000_j49581102465347_3_alg».proof.Proof.Gen.Pre_finite_inputs
import proofs.«401000_j49581102465347_3_alg».proof.Proof.Spec
import proofs.«401000_j49581102465347_3_alg».proof.Proof.PreDecode
import proofs.«401000_j49581102465347_3_alg».proof.Proof.Regroup
import proofs.«401000_j49581102465347_3_alg».proof.Proof.KernelValue
import proofs.«401000_j49581102465347_3_alg».proof.Proof.RefRun
import proofs.«401000_j49581102465347_3_alg».proof.Proof.RefIvec
import proofs.«401000_j49581102465347_3_alg».proof.Proof.RefScatter
import Idealize.ShloMosaic.Adequacy
import Idealize.ShloMosaic.Init

noncomputable section

namespace Cert.Proof

open Idealize.ShloMosaic Idealize.SL.Sem

/-- The reference's result is the unpooled array when every word points into its own window: its index vectors
    are (batch, decoded row, decoded column, channel), and a scatter-add at such vectors is the unpooled array. -/
theorem refOut_eq (x : FVec Ideal Cert.ReferenceIdeal.S32x128x128x64 .f32) (idx : IVec Cert.ReferenceIdeal.S32x128x128x64 32)
    (hO : Cert.Unpool.Own idx) : Cert.ReferenceIdeal.Ref.refOut (F := Ideal) x idx = Cert.Unpool.unpool x idx :=
  Cert.ReferenceIdeal.Ref.scatter_unpool x idx hO _ (Cert.ReferenceIdeal.Ref.ivec_apply idx hO)

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Ref.run (F := Ideal) m ρ)

/-- Both runs end at the unpooled array of the common arguments: the kernel's through its five-axis arrangement
    regrouped, the reference's through its scatter-add; the precondition gives that every word points into its
    own window. -/
theorem algebraic : Cert.algebraic_KernelIdeal_ReferenceIdeal := by
  intro m ρ m' ρ' hpre hagree
  have hO : ∀ c : Dev Cert.KernelIdeal.nD, Cert.Unpool.Own
      (m ((c.tc : Thread Cert.KernelIdeal.nD Cert.KernelIdeal.τ).loc Cert.KernelIdeal.main_arg1)) :=
    fun c => Cert.Unpool.own_of_pre _ _ (hpre c)
  refine ⟨fun c => Cert.Unpool.unpool
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run Cert.KernelIdeal.defs _ _).mono
      (fun _ h c => ⟨(h c).1.trans (Cert.Unpool.regroup_eq _ _ (hO c)), (h c).2⟩)
      (Cert.KernelIdeal.KValue.run m ρ)
  · refine (θ_run Cert.ReferenceIdeal.defs _ _).mono (fun _ h c => ⟨(h c).1.trans ?_, (h c).2⟩)
      (Cert.ReferenceIdeal.Ref.run (F := Ideal) m' ρ')
    rw [(hagree c).1, (hagree c).2]
    exact refOut_eq _ _ (hO c)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
